-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x384x384 : Shape := ⟨4, ![64, 1, 384, 384]⟩
abbrev S10000 : Shape := ⟨1, ![10000]⟩
abbrev S_ : Shape := ⟨0, ![]⟩

class Facts : Prop where
  bcast_S_S64x1x384x384 : S_.BroadcastsInDim S64x1x384x384 (![] : Fin 0 → Fin S64x1x384x384.rank)
  reducesTo_S64x1x384x384_S_d0_1_2_3 : S64x1x384x384.ReducesTo [0, 1, 2, 3] S_
  h_S_ : 0 < S_.numel
  bcast_S_S10000 : S_.BroadcastsInDim S10000 (![] : Fin 0 → Fin S10000.rank)
  reducesTo_S10000_S_d0 : S10000.ReducesTo [0] S_

variable [Facts]

def fn_part2 {F : FTy → Type} [FloatOps F] (main_arg5 : IVec S10000 32) (main_v29 : IVec S_ 1) (main_v31 : IVec S10000 1) (main_v32 : IVec S10000 32) : IVec S_ 1 :=
  let main_v33 : IVec S10000 1 := cmpi .slt main_arg5 main_v32
  let main_v34 : IVec S10000 1 := andi main_v31 main_v33
  let main_c_13 : IVec S_ 1 := constantI S_ 1 1#1
  let main_v35 : IVec S_ 1 := (fun x v => Host.reduce IntOp.andi x v reducesTo_S10000_S_d0 h_S_) main_v34 main_c_13
  let main_v36 : IVec S_ 1 := andi main_v29 main_v35
  main_v36

def fn_part1 {F : FTy → Type} [FloatOps F] (main_arg3 : IVec S10000 32) (main_arg4 : IVec S10000 32) (main_arg5 : IVec S10000 32) (main_v15 : IVec S_ 1) (main_c_5 : IVec S_ 32) : IVec S_ 1 :=
  let main_v16 : IVec S10000 32 := broadcastInDim S10000 ![] bcast_S_S10000 main_c_5
  let main_v17 : IVec S10000 1 := cmpi .sge main_arg3 main_v16
  let main_c_6 : IVec S_ 32 := constantI S_ 32 384#32
  let main_v18 : IVec S10000 32 := broadcastInDim S10000 ![] bcast_S_S10000 main_c_6
  let main_v19 : IVec S10000 1 := cmpi .slt main_arg3 main_v18
  let main_v20 : IVec S10000 1 := andi main_v17 main_v19
  let main_c_7 : IVec S_ 1 := constantI S_ 1 1#1
  let main_v21 : IVec S_ 1 := (fun x v => Host.reduce IntOp.andi x v reducesTo_S10000_S_d0 h_S_) main_v20 main_c_7
  let main_v22 : IVec S_ 1 := andi main_v15 main_v21
  let main_c_8 : IVec S_ 32 := constantI S_ 32 0#32
  let main_v23 : IVec S10000 32 := broadcastInDim S10000 ![] bcast_S_S10000 main_c_8
  let main_v24 : IVec S10000 1 := cmpi .sge main_arg4 main_v23
  let main_c_9 : IVec S_ 32 := constantI S_ 32 384#32
  let main_v25 : IVec S10000 32 := broadcastInDim S10000 ![] bcast_S_S10000 main_c_9
  let main_v26 : IVec S10000 1 := cmpi .slt main_arg4 main_v25
  let main_v27 : IVec S10000 1 := andi main_v24 main_v26
  let main_c_10 : IVec S_ 1 := constantI S_ 1 1#1
  let main_v28 : IVec S_ 1 := (fun x v => Host.reduce IntOp.andi x v reducesTo_S10000_S_d0 h_S_) main_v27 main_c_10
  let main_v29 : IVec S_ 1 := andi main_v22 main_v28
  let main_c_11 : IVec S_ 32 := constantI S_ 32 0#32
  let main_v30 : IVec S10000 32 := broadcastInDim S10000 ![] bcast_S_S10000 main_c_11
  let main_v31 : IVec S10000 1 := cmpi .sge main_arg5 main_v30
  let main_c_12 : IVec S_ 32 := constantI S_ 32 384#32
  let main_v32 : IVec S10000 32 := broadcastInDim S10000 ![] bcast_S_S10000 main_c_12
  fn_part2 (F := F) main_arg5 main_v29 main_v31 main_v32

def fn {F : FTy → Type} [FloatOps F] (main_arg0 : FVec F S64x1x384x384 .f32) (main_arg1 : FVec F S64x1x384x384 .f32) (main_arg2 : IVec S10000 32) (main_arg3 : IVec S10000 32) (main_arg4 : IVec S10000 32) (main_arg5 : IVec S10000 32) : IVec S_ 1 :=
  let main_v0 : FVec F S64x1x384x384 .f32 := Host.absf main_arg0
  let main_cst : FVec F S_ .f32 := constant S_ .f32 0x7F800000#32
  let main_v1 : FVec F S64x1x384x384 .f32 := broadcastInDim S64x1x384x384 ![] bcast_S_S64x1x384x384 main_cst
  let main_v2 : IVec S64x1x384x384 1 := cmpf .olt main_v0 main_v1
  let main_c : IVec S_ 1 := constantI S_ 1 1#1
  let main_v3 : IVec S_ 1 := (fun x v => Host.reduce IntOp.andi x v reducesTo_S64x1x384x384_S_d0_1_2_3 h_S_) main_v2 main_c
  let main_v4 : FVec F S64x1x384x384 .f32 := Host.absf main_arg1
  let main_cst_0 : FVec F S_ .f32 := constant S_ .f32 0x7F800000#32
  let main_v5 : FVec F S64x1x384x384 .f32 := broadcastInDim S64x1x384x384 ![] bcast_S_S64x1x384x384 main_cst_0
  let main_v6 : IVec S64x1x384x384 1 := cmpf .olt main_v4 main_v5
  let main_c_1 : IVec S_ 1 := constantI S_ 1 1#1
  let main_v7 : IVec S_ 1 := (fun x v => Host.reduce IntOp.andi x v reducesTo_S64x1x384x384_S_d0_1_2_3 h_S_) main_v6 main_c_1
  let main_v8 : IVec S_ 1 := andi main_v3 main_v7
  let main_c_2 : IVec S_ 32 := constantI S_ 32 0#32
  let main_v9 : IVec S10000 32 := broadcastInDim S10000 ![] bcast_S_S10000 main_c_2
  let main_v10 : IVec S10000 1 := cmpi .sge main_arg2 main_v9
  let main_c_3 : IVec S_ 32 := constantI S_ 32 384#32
  let main_v11 : IVec S10000 32 := broadcastInDim S10000 ![] bcast_S_S10000 main_c_3
  let main_v12 : IVec S10000 1 := cmpi .slt main_arg2 main_v11
  let main_v13 : IVec S10000 1 := andi main_v10 main_v12
  let main_c_4 : IVec S_ 1 := constantI S_ 1 1#1
  let main_v14 : IVec S_ 1 := (fun x v => Host.reduce IntOp.andi x v reducesTo_S10000_S_d0 h_S_) main_v13 main_c_4
  let main_v15 : IVec S_ 1 := andi main_v8 main_v14
  let main_c_5 : IVec S_ 32 := constantI S_ 32 0#32
  fn_part1 (F := F) main_arg3 main_arg4 main_arg5 main_v15 main_c_5
-- ==== Kernel.lean ====
abbrev S64x1x384x384 : Shape := ⟨4, ![64, 1, 384, 384]⟩
abbrev S10000 : Shape := ⟨1, ![10000]⟩
abbrev S64x384x384 : Shape := ⟨3, ![64, 384, 384]⟩
abbrev S64x147456 : Shape := ⟨2, ![64, 147456]⟩
abbrev S128x147456 : Shape := ⟨2, ![128, 147456]⟩
abbrev S_ : Shape := ⟨0, ![]⟩
abbrev S10240 : Shape := ⟨1, ![10240]⟩
abbrev S20480 : Shape := ⟨1, ![20480]⟩
abbrev S20480x1 : Shape := ⟨2, ![20480, 1]⟩
abbrev S128x20480 : Shape := ⟨2, ![128, 20480]⟩
abbrev S64x10240 : Shape := ⟨2, ![64, 10240]⟩
abbrev S1x256 : Shape := ⟨2, ![1, 256]⟩
abbrev S64x5120 : Shape := ⟨2, ![64, 5120]⟩
abbrev S1x128 : Shape := ⟨2, ![1, 128]⟩
abbrev S5120 : Shape := ⟨1, ![5120]⟩
abbrev S1x5120 : Shape := ⟨2, ![1, 5120]⟩
abbrev S1 : Shape := ⟨1, ![1]⟩
abbrev S1x1 : Shape := ⟨2, ![1, 1]⟩

abbrev nBuf : Space → Nat
  | .hbm => 37
  | .vmem => 10
  | .smem => 0
  | _ => 0

abbrev bufTy : (tb : Table) → Fin (tcTables nBuf tb) → BufTy
  | .hbm, ⟨0, _⟩ => ⟨S64x1x384x384, .f32⟩
  | .hbm, ⟨1, _⟩ => ⟨S64x1x384x384, .f32⟩
  | .hbm, ⟨2, _⟩ => ⟨S10000, .i32⟩
  | .hbm, ⟨3, _⟩ => ⟨S10000, .i32⟩
  | .hbm, ⟨4, _⟩ => ⟨S10000, .i32⟩
  | .hbm, ⟨5, _⟩ => ⟨S10000, .i32⟩
  | .hbm, ⟨6, _⟩ => ⟨S64x384x384, .f32⟩
  | .hbm, ⟨7, _⟩ => ⟨S64x384x384, .f32⟩
  | .hbm, ⟨8, _⟩ => ⟨S64x147456, .f32⟩
  | .hbm, ⟨9, _⟩ => ⟨S64x147456, .f32⟩
  | .hbm, ⟨10, _⟩ => ⟨S128x147456, .f32⟩
  | .hbm, ⟨11, _⟩ => ⟨S_, .i32⟩
  | .hbm, ⟨12, _⟩ => ⟨S10000, .i32⟩
  | .hbm, ⟨13, _⟩ => ⟨S10000, .i32⟩
  | .hbm, ⟨14, _⟩ => ⟨S10000, .i32⟩
  | .hbm, ⟨15, _⟩ => ⟨S_, .i32⟩
  | .hbm, ⟨16, _⟩ => ⟨S10000, .i32⟩
  | .hbm, ⟨17, _⟩ => ⟨S10000, .i32⟩
  | .hbm, ⟨18, _⟩ => ⟨S10000, .i32⟩
  | .hbm, ⟨19, _⟩ => ⟨S_, .i32⟩
  | .hbm, ⟨20, _⟩ => ⟨S_, .i32⟩
  | .hbm, ⟨21, _⟩ => ⟨S10240, .i32⟩
  | .hbm, ⟨22, _⟩ => ⟨S_, .i32⟩
  | .hbm, ⟨23, _⟩ => ⟨S_, .i32⟩
  | .hbm, ⟨24, _⟩ => ⟨S10240, .i32⟩
  | .hbm, ⟨25, _⟩ => ⟨S20480, .i32⟩
  | .hbm, ⟨26, _⟩ => ⟨S20480x1, .i32⟩
  | .hbm, ⟨27, _⟩ => ⟨S128x20480, .f32⟩
  | .hbm, ⟨28, _⟩ => ⟨S64x10240, .f32⟩
  | .hbm, ⟨29, _⟩ => ⟨S64x10240, .f32⟩
  | .hbm, ⟨30, _⟩ => ⟨S64x10240, .f32⟩
  | .hbm, ⟨31, _⟩ => ⟨S64x10240, .f32⟩
  | .hbm, ⟨32, _⟩ => ⟨S1x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S64x5120, .f32⟩
  | .local _ .vmem, ⟨1, _⟩ => ⟨S64x5120, .f32⟩
  | .local _ .vmem, ⟨2, _⟩ => ⟨S64x5120, .f32⟩
  | .local _ .vmem, ⟨3, _⟩ => ⟨S64x5120, .f32⟩
  | .local _ .vmem, ⟨4, _⟩ => ⟨S64x5120, .f32⟩
  | .local _ .vmem, ⟨5, _⟩ => ⟨S64x5120, .f32⟩
  | .local _ .vmem, ⟨6, _⟩ => ⟨S64x5120, .f32⟩
  | .local _ .vmem, ⟨7, _⟩ => ⟨S64x5120, .f32⟩
  | .local _ .vmem, ⟨8, _⟩ => ⟨S1x128, .f32⟩
  | .local _ .vmem, ⟨9, _⟩ => ⟨S1x128, .f32⟩
  | _, _ => ⟨S64x1x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call0_v0 : Ref sig .tc := ⟨.hbm, 20, rfl⟩
abbrev main_v11 : Ref sig .tc := ⟨.hbm, 21, rfl⟩
abbrev main_c_2 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x1x384x384_S64x384x384 : S64x1x384x384.ShapeCasts S64x384x384
  shapeCasts_S64x384x384_S64x147456 : S64x384x384.ShapeCasts S64x147456
  concatenates_S64x147456_S64x147456_S128x147456_d0 : Shape.Concatenates [S64x147456, S64x147456] S128x147456 0
  bcast_S_S10000 : S_.BroadcastsInDim S10000 (![] : Fin 0 → Fin S10000.rank)
  pads_S10000_S10240_02400 : S10000.Pads (![0] : Fin 1 → Nat) ![240] ![0] S10240
  h_S_ : 0 < S_.numel
  concatenates_S10240_S10240_S20480_d0 : Shape.Concatenates [S10240, S10240] S20480 0
  bcast_S20480_S20480x1_0 : S20480.BroadcastsInDim S20480x1 (![0] : Fin 1 → Fin S20480x1.rank)
  slices_S128x20480_S64x10240_0_0 : S128x20480.Slices ![0, 0] S64x10240
  slices_S128x20480_S64x10240_64_0 : S128x20480.Slices ![64, 0] S64x10240
  slices_S128x20480_S64x10240_0_10240 : S128x20480.Slices ![0, 10240] S64x10240
  slices_S128x20480_S64x10240_64_10240 : S128x20480.Slices ![64, 10240] S64x10240
  inb_S64x5120_S64x5120_0_0 : ∀ a, (![0, 0] : Fin 2 → Nat) a + S64x5120.size a ≤ S64x5120.size a
  h_S64x5120 : 0 < S64x5120.numel
  shapeCasts_S64x5120_S64x5120 : S64x5120.ShapeCasts S64x5120
  natLt_1_32 : 1 < 32
  reduces_S64x5120_S5120 : S64x5120.Reduces [0] S5120
  shapeCasts_S5120_S1x5120 : S5120.ShapeCasts S1x5120
  iota_S1x5120_d1_w32 : S1x5120.Iotas .tc 32 [1]
  reduces_S1x5120_S1 : S1x5120.Reduces [1] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  reducesTo_S1x256_S_d0_1 : S1x256.ReducesTo [0, 1] S_
  gather_S128x147456_S20480x1_S128x20480_0_1_n_n_1_1_1281_wf : GatherDims.WF S128x147456 S20480x1 S128x20480 [0] [1] [] [1] [] 1 ![128, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x5120.size a ≤ S64x10240.size a
  hwx0_0 : ∀ i : grid0.Coords, EltTy.bits .f32 = 32 ∨ (Rect.block (s := S64x10240) S64x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x5120.size a ≤ S64x10240.size a
  hwx0_1 : ∀ i : grid0.Coords, EltTy.bits .f32 = 32 ∨ (Rect.block (s := S64x10240) S64x5120.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x5120.size a ≤ S64x10240.size a
  hwx0_2 : ∀ i : grid0.Coords, EltTy.bits .f32 = 32 ∨ (Rect.block (s := S64x10240) S64x5120.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x5120.size a ≤ S64x10240.size a
  hwx0_3 : ∀ i : grid0.Coords, EltTy.bits .f32 = 32 ∨ (Rect.block (s := S64x10240) S64x5120.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)

variable [Facts₀]

def gather_S128x147456_S20480x1_S128x20480_0_1_n_n_1_1_1281 : GatherDims S128x147456 S20480x1 S128x20480 where
  offsetDims := [0]
  collapsedSliceDims := [1]
  operandBatchingDims := []
  startIndicesBatchingDims := []
  startIndexMap := [1]
  indexVectorDim := 1
  sliceSizes := ![128, 1]
  wf := gather_S128x147456_S20480x1_S128x20480_0_1_n_n_1_1_1281_wf

abbrev win0_0 : Pipeline.Window sig grid0 :=
  Pipeline.Window.ofSpec (Memref.whole main_v15) S64x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S64x5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x5120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x5120.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1x384x384 : Shape := ⟨4, ![64, 1, 384, 384]⟩
abbrev S10000 : Shape := ⟨1, ![10000]⟩
abbrev S64x384x384 : Shape := ⟨3, ![64, 384, 384]⟩
abbrev S_ : Shape := ⟨0, ![]⟩
abbrev S10000x1 : Shape := ⟨2, ![10000, 1]⟩
abbrev S10000x2 : Shape := ⟨2, ![10000, 2]⟩
abbrev S64x10000 : Shape := ⟨2, ![64, 10000]⟩

abbrev nBuf : Space → Nat
  | .hbm => 171
  | .vmem => 0
  | .smem => 0
  | _ => 0

abbrev hbmTy0_0 (i : Nat) : BufTy := match i % 128 with
  | 0 => ⟨S64x1x384x384, .f32⟩
  | 1 => ⟨S64x1x384x384, .f32⟩
  | 2 => ⟨S10000, .i32⟩
  | 3 => ⟨S10000, .i32⟩
  | 4 => ⟨S10000, .i32⟩
  | 5 => ⟨S10000, .i32⟩
  | 6 => ⟨S64x384x384, .f32⟩
  | 7 => ⟨S64x384x384, .f32⟩
  | 8 => ⟨S_, .i32⟩
  | 9 => ⟨S10000, .i32⟩
  | 10 => ⟨S10000, .i1⟩
  | 11 => ⟨S_, .i32⟩
  | 12 => ⟨S10000, .i32⟩
  | 13 => ⟨S10000, .i32⟩
  | 14 => ⟨S10000, .i32⟩
  | 15 => ⟨S_, .i32⟩
  | 16 => ⟨S10000, .i32⟩
  | 17 => ⟨S10000, .i1⟩
  | 18 => ⟨S_, .i32⟩
  | 19 => ⟨S10000, .i32⟩
  | 20 => ⟨S10000, .i32⟩
  | 21 => ⟨S10000, .i32⟩
  | 22 => ⟨S10000x1, .i32⟩
  | 23 => ⟨S10000x1, .i32⟩
  | 24 => ⟨S10000x2, .i32⟩
  | 25 => ⟨S64x10000, .f32⟩
  | 26 => ⟨S_, .i32⟩
  | 27 => ⟨S10000, .i32⟩
  | 28 => ⟨S10000, .i1⟩
  | 29 => ⟨S_, .i32⟩
  | 30 => ⟨S10000, .i32⟩
  | 31 => ⟨S10000, .i32⟩
  | 32 => ⟨S10000, .i32⟩
  | 33 => ⟨S_, .i32⟩
  | 34 => ⟨S10000, .i32⟩
  | 35 => ⟨S10000, .i1⟩
  | 36 => ⟨S_, .i32⟩
  | 37 => ⟨S10000, .i32⟩
  | 38 => ⟨S10000, .i32⟩
  | 39 => ⟨S10000, .i32⟩
  | 40 => ⟨S10000x1, .i32⟩
  | 41 => ⟨S10000x1, .i32⟩
  | 42 => ⟨S10000x2, .i32⟩
  | 43 => ⟨S64x10000, .f32⟩
  | 44 => ⟨S_, .f32⟩
  | 45 => ⟨S64x10000, .f32⟩
  | 46 => ⟨S64x10000, .f32⟩
  | 47 => ⟨S64x10000, .f32⟩
  | 48 => ⟨S_, .f32⟩
  | 49 => ⟨S64x10000, .f32⟩
  | 50 => ⟨S64x10000, .i1⟩
  | 51 => ⟨S_, .f32⟩
  | 52 => ⟨S64x10000, .f32⟩
  | 53 => ⟨S64x10000, .f32⟩
  | 54 => ⟨S64x10000, .f32⟩
  | 55 => ⟨S_, .f32⟩
  | 56 => ⟨S64x10000, .f32⟩
  | 57 => ⟨S64x10000, .i1⟩
  | 58 => ⟨S_, .f32⟩
  | 59 => ⟨S_, .f32⟩
  | 60 => ⟨S64x10000, .f32⟩
  | 61 => ⟨S64x10000, .f32⟩
  | 62 => ⟨S64x10000, .f32⟩
  | 63 => ⟨S_, .f32⟩
  | 64 => ⟨S64x10000, .f32⟩
  | 65 => ⟨S64x10000, .f32⟩
  | 66 => ⟨S_, .i32⟩
  | 67 => ⟨S10000, .i32⟩
  | 68 => ⟨S10000, .i1⟩
  | 69 => ⟨S_, .i32⟩
  | 70 => ⟨S10000, .i32⟩
  | 71 => ⟨S10000, .i32⟩
  | 72 => ⟨S10000, .i32⟩
  | 73 => ⟨S_, .i32⟩
  | 74 => ⟨S10000, .i32⟩
  | 75 => ⟨S10000, .i1⟩
  | 76 => ⟨S_, .i32⟩
  | 77 => ⟨S10000, .i32⟩
  | 78 => ⟨S10000, .i32⟩
  | 79 => ⟨S10000, .i32⟩
  | 80 => ⟨S10000x1, .i32⟩
  | 81 => ⟨S10000x1, .i32⟩
  | 82 => ⟨S10000x2, .i32⟩
  | 83 => ⟨S64x10000, .f32⟩
  | 84 => ⟨S_, .i32⟩
  | 85 => ⟨S10000, .i32⟩
  | 86 => ⟨S10000, .i1⟩
  | 87 => ⟨S_, .i32⟩
  | 88 => ⟨S10000, .i32⟩
  | 89 => ⟨S10000, .i32⟩
  | 90 => ⟨S10000, .i32⟩
  | 91 => ⟨S_, .i32⟩
  | 92 => ⟨S10000, .i32⟩
  | 93 => ⟨S10000, .i1⟩
  | 94 => ⟨S_, .i32⟩
  | 95 => ⟨S10000, .i32⟩
  | 96 => ⟨S10000, .i32⟩
  | 97 => ⟨S10000, .i32⟩
  | 98 => ⟨S10000x1, .i32⟩
  | 99 => ⟨S10000x1, .i32⟩
  | 100 => ⟨S10000x2, .i32⟩
  | 101 => ⟨S64x10000, .f32⟩
  | 102 => ⟨S64x10000, .f32⟩
  | 103 => ⟨S_, .f32⟩
  | 104 => ⟨S64x10000, .f32⟩
  | 105 => ⟨S64x10000, .i1⟩
  | 106 => ⟨S64x10000, .f32⟩
  | 107 => ⟨S64x10000, .f32⟩
  | 108 => ⟨S64x10000, .f32⟩
  | 109 => ⟨S_, .f32⟩
  | 110 => ⟨S64x10000, .f32⟩
  | 111 => ⟨S64x10000, .f32⟩
  | 112 => ⟨S64x10000, .f32⟩
  | 113 => ⟨S64x10000, .f32⟩
  | 114 => ⟨S64x10000, .i1⟩
  | 115 => ⟨S64x10000, .f32⟩
  | 116 => ⟨S64x10000, .f32⟩
  | 117 => ⟨S64x10000, .f32⟩
  | 118 => ⟨S64x10000, .f32⟩
  | 119 => ⟨S64x10000, .f32⟩
  | 120 => ⟨S64x10000, .f32⟩
  | 121 => ⟨S64x10000, .f32⟩
  | 122 => ⟨S64x10000, .f32⟩
  | 123 => ⟨S64x10000, .i32⟩
  | 124 => ⟨S_, .i32⟩
  | 125 => ⟨S10000, .i32⟩
  | 126 => ⟨S_, .i32⟩
  | 127 => ⟨S10000, .i32⟩
  | _ => ⟨S64x1x384x384, .f32⟩

abbrev hbmTy0_1 (i : Nat) : BufTy := match i % 128 with
  | 0 => ⟨S10000, .i32⟩
  | 1 => ⟨S_, .i32⟩
  | 2 => ⟨S10000, .i32⟩
  | 3 => ⟨S10000, .i1⟩
  | 4 => ⟨S_, .f32⟩
  | 5 => ⟨S_, .f32⟩
  | 6 => ⟨S64x10000, .f32⟩
  | 7 => ⟨S64x10000, .f32⟩
  | 8 => ⟨S_, .f32⟩
  | 9 => ⟨S10000, .f32⟩
  | 10 => ⟨S_, .i32⟩
  | 11 => ⟨S10000, .i32⟩
  | 12 => ⟨S10000, .i32⟩
  | 13 => ⟨S10000, .f32⟩
  | 14 => ⟨S10000, .f32⟩
  | 15 => ⟨S_, .f32⟩
  | 16 => ⟨S_, .f32⟩
  | 17 => ⟨S10000, .f32⟩
  | 18 => ⟨S10000, .f32⟩
  | 19 => ⟨S_, .i32⟩
  | 20 => ⟨S10000, .i32⟩
  | 21 => ⟨S10000, .i1⟩
  | 22 => ⟨S64x10000, .f32⟩
  | 23 => ⟨S_, .f32⟩
  | 24 => ⟨S_, .f32⟩
  | 25 => ⟨S64x10000, .f32⟩
  | 26 => ⟨S64x10000, .f32⟩
  | 27 => ⟨S_, .f32⟩
  | 28 => ⟨S10000, .f32⟩
  | 29 => ⟨S_, .i32⟩
  | 30 => ⟨S10000, .i32⟩
  | 31 => ⟨S10000, .i32⟩
  | 32 => ⟨S10000, .f32⟩
  | 33 => ⟨S10000, .f32⟩
  | 34 => ⟨S_, .f32⟩
  | 35 => ⟨S_, .f32⟩
  | 36 => ⟨S10000, .f32⟩
  | 37 => ⟨S10000, .f32⟩
  | 38 => ⟨S10000, .f32⟩
  | 39 => ⟨S_, .f32⟩
  | 40 => ⟨S_, .f32⟩
  | 41 => ⟨S_, .f32⟩
  | 42 => ⟨S_, .f32⟩
  | _ => ⟨S64x1x384x384, .f32⟩

abbrev hbmTy (i : Nat) : BufTy := match i / 128 with
  | 0 => hbmTy0_0 i
  | 1 => hbmTy0_1 i
  | _ => ⟨S64x1x384x384, .f32⟩

abbrev bufTy : (tb : Table) → Fin (tcTables nBuf tb) → BufTy
  | .hbm, ⟨i, _⟩ => hbmTy i
  | _, _ => ⟨S64x1x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_cst_11 : Ref sig .tc := ⟨.hbm, 59, rfl⟩
abbrev main_call0_v0 : Ref sig .tc := ⟨.hbm, 60, rfl⟩
abbrev main_call0_v1 : Ref sig .tc := ⟨.hbm, 61, rfl⟩
abbrev main_v40 : Ref sig .tc := ⟨.hbm, 62, rfl⟩
abbrev main_cst_12 : Ref sig .tc := ⟨.hbm, 63, rfl⟩
abbrev main_call1_v0 : Ref sig .tc := ⟨.hbm, 64, rfl⟩
abbrev main_v41 : Ref sig .tc := ⟨.hbm, 65, rfl⟩
abbrev main_c_13 : Ref sig .tc := ⟨.hbm, 66, rfl⟩
abbrev main_v42 : Ref sig .tc := ⟨.hbm, 67, rfl⟩
abbrev main_v43 : Ref sig .tc := ⟨.hbm, 68, rfl⟩
abbrev main_c_14 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_15 : Ref sig .tc := ⟨.hbm, 73, rfl⟩
abbrev main_v47 : Ref sig .tc := ⟨.hbm, 74, rfl⟩
abbrev main_v48 : Ref sig .tc := ⟨.hbm, 75, rfl⟩
abbrev main_c_16 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_17 : Ref sig .tc := ⟨.hbm, 84, rfl⟩
abbrev main_v56 : Ref sig .tc := ⟨.hbm, 85, rfl⟩
abbrev main_v57 : Ref sig .tc := ⟨.hbm, 86, rfl⟩
abbrev main_c_18 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_19 : Ref sig .tc := ⟨.hbm, 91, rfl⟩
abbrev main_v61 : Ref sig .tc := ⟨.hbm, 92, rfl⟩
abbrev main_v62 : Ref sig .tc := ⟨.hbm, 93, rfl⟩
abbrev main_c_20 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_21 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_v76 : Ref sig .tc := ⟨.hbm, 122, rfl⟩
abbrev main_v77 : Ref sig .tc := ⟨.hbm, 123, rfl⟩
abbrev main_c_22 : Ref sig .tc := ⟨.hbm, 124, rfl⟩
abbrev main_v78 : Ref sig .tc := ⟨.hbm, 125, rfl⟩
abbrev main_c_23 : Ref sig .tc := ⟨.hbm, 126, rfl⟩
abbrev main_v79 : Ref sig .tc := ⟨.hbm, 127, rfl⟩
abbrev main_v80 : Ref sig .tc := ⟨.hbm, 128, rfl⟩
abbrev main_c_24 : Ref sig .tc := ⟨.hbm, 129, rfl⟩
abbrev main_v81 : Ref sig .tc := ⟨.hbm, 130, rfl⟩
abbrev main_v82 : Ref sig .tc := ⟨.hbm, 131, rfl⟩
abbrev main_cst_25 : Ref sig .tc := ⟨.hbm, 132, rfl⟩
abbrev main_call3_v0 : Ref sig .tc := ⟨.hbm, 133, rfl⟩
abbrev main_call3_v1 : Ref sig .tc := ⟨.hbm, 134, rfl⟩
abbrev main_v83 : Ref sig .tc := ⟨.hbm, 135, rfl⟩
abbrev main_cst_26 : Ref sig .tc := ⟨.hbm, 136, rfl⟩
abbrev main_v84 : Ref sig .tc := ⟨.hbm, 137, rfl⟩
abbrev main_c_27 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_28 : Ref sig .tc := ⟨.hbm, 143, rfl⟩
abbrev main_call4_v0 : Ref sig .tc := ⟨.hbm, 144, rfl⟩
abbrev main_call4_v1 : Ref sig .tc := ⟨.hbm, 145, rfl⟩
abbrev main_v89 : Ref sig .tc := ⟨.hbm, 146, rfl⟩
abbrev main_c_29 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_30 : Ref sig .tc := ⟨.hbm, 151, rfl⟩
abbrev main_call5_v0 : Ref sig .tc := ⟨.hbm, 152, rfl⟩
abbrev main_call5_v1 : Ref sig .tc := ⟨.hbm, 153, rfl⟩
abbrev main_v93 : Ref sig .tc := ⟨.hbm, 154, rfl⟩
abbrev main_cst_31 : Ref sig .tc := ⟨.hbm, 155, rfl⟩
abbrev main_v94 : Ref sig .tc := ⟨.hbm, 156, rfl⟩
abbrev main_c_32 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_33 : Ref sig .tc := ⟨.hbm, 162, rfl⟩
abbrev main_call6_v0 : Ref sig .tc := ⟨.hbm, 163, rfl⟩
abbrev main_call6_v1 : Ref sig .tc := ⟨.hbm, 164, rfl⟩
abbrev main_v99 : Ref sig .tc := ⟨.hbm, 165, rfl⟩
abbrev main_v100 : Ref sig .tc := ⟨.hbm, 166, rfl⟩
abbrev main_cst_34 : Ref sig .tc := ⟨.hbm, 167, rfl⟩
abbrev main_v101 : Ref sig .tc := ⟨.hbm, 168, rfl⟩
abbrev main_cst_35 : Ref sig .tc := ⟨.hbm, 169, rfl⟩
abbrev main_v102 : Ref sig .tc := ⟨.hbm, 170, rfl⟩

abbrev nD : Nat := 1
abbrev τ : Topo := Topo.v7x

variable {F : FTy → Type} [FloatOps F]

class Facts₀ : Prop where
  shapeCasts_S64x1x384x384_S64x384x384 : S64x1x384x384.ShapeCasts S64x384x384
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  bcast_S_S64x10000 : S_.BroadcastsInDim S64x10000 (![] : Fin 0 → Fin S64x10000.rank)
  natLt_1_32 : 1 < 32
  reducesTo_S64x10000_S10000_d0 : S64x10000.ReducesTo [0] S10000
  h_S_ : 0 < S_.numel
  reducesTo_S10000_S_d0 : S10000.ReducesTo [0] S_
  gather_S64x384x384_S10000x2_S64x10000_0_12_n_n_12_1_6411_wf : GatherDims.WF S64x384x384 S10000x2 S64x10000 [0] [1, 2] [] [1, 2] [] 1 ![64, 1, 1]

variable [Facts₀]

def gather_S64x384x384_S10000x2_S64x10000_0_12_n_n_12_1_6411 : GatherDims S64x384x384 S10000x2 S64x10000 where
  offsetDims := [0]
  collapsedSliceDims := [1, 2]
  operandBatchingDims := []
  startIndicesBatchingDims := []
  startIndexMap := [1, 2]
  indexVectorDim := 1
  sliceSizes := ![64, 1, 1]
  wf := gather_S64x384x384_S10000x2_S64x10000_0_12_n_n_12_1_6411_wf

class Facts : Prop extends Facts₀ where

variable [Facts]
-- ==== Proof.Spec.lean ====
/-
  The ranking loss as one function of the four gathered [64, 10000] arrays of extended reals: for every sampled
  pair n and batch element b, the two ground-truth pixels p1, p2 and the two predicted pixels o1, o2.

  * the ranking label of (p1, p2) is +1 when p1 / (p2 + ε) exceeds the threshold, else -1 when p2 / (p1 + ε)
    does, else 0;
  * a pair with a non-zero label contributes softplus (-label · (o1 - o2)), a pair with label 0 contributes
    (o1 - o2)²;
  * per sampled pair n, the first kind is averaged over the k batch elements that have it and the second over
    the 64 - k others (an empty average is 0), and the two averages are added;
  * the loss is the sum over the 10000 sampled pairs divided by 10000.

  Every operation is the extended reals' own (the quotient `Ideal.div`, `Ideal.exp`, `Ideal.log1p`, the
  comparisons of the linear order), and every literal is kept as the word both programs carry.
-/
import Idealize.ShloMosaic.PureOps.Ideal
import Idealize.ShloMosaic.PureOps.Ideal.Laws

noncomputable section

namespace Cert.RankLoss

open Idealize.ShloMosaic

/-- The word 0.0. -/
abbrev c0 : EReal := Ideal.ofBits .f32 0x00000000#32
/-- The word 1e-7, ε. -/
abbrev eps : EReal := Ideal.ofBits .f32 0x33D6BF95#32
/-- The word 1.02, the ratio's threshold. -/
abbrev thr : EReal := Ideal.ofBits .f32 0x3F828F5C#32
/-- The words 1.0, -1.0, 64.0 and 10000.0. -/
abbrev pos1 : EReal := Ideal.ofBits .f32 0x3F800000#32
abbrev neg1 : EReal := Ideal.ofBits .f32 0xBF800000#32
abbrev c64 : EReal := Ideal.ofBits .f32 0x42800000#32
abbrev c10000 : EReal := Ideal.ofBits .f32 0x461C4000#32

theorem c0_eq : c0 = 0 := Ideal.ofBits_zero_f32

/-- a / (b + ε) exceeds the threshold. -/
def gtThr (a b : EReal) : BitVec 1 := Ideal.cmp .ogt (Ideal.div a (b + eps)) thr

/-- The ranking label of a pair of ground-truth pixels. -/
def label (p1 p2 : EReal) : EReal :=
  Scalar.select (gtThr p1 p2) pos1 (Scalar.select (gtThr p2 p1) neg1 c0)

/-- log (1 + eᶻ) in the stable form max z 0 + log1p (e^(-|z - 0|)); the first branch (z - 0 ≠ z - 0) is never
    taken on the extended reals. -/
def softplus (z : EReal) : EReal :=
  Scalar.select (Ideal.cmp .one (z - c0) (z - c0)) (z + c0)
    (max z c0 + Ideal.log1p (Ideal.exp (-(max (z - c0) (-(z - c0))))))

/-- What an ordered pair contributes. -/
def term (p1 p2 o1 o2 : EReal) : EReal := softplus (-(label p1 p2) * (o1 - o2))

/-- The number of batch elements whose pair is ordered (label ≠ 0). -/
def cnt (p1 p2 : Fin 64 → EReal) : ℕ := (Finset.univ.filter fun b => label (p1 b) (p2 b) ≠ c0).card

/-- The ordered pairs' contributions, summed over the batch. -/
def sumTerm (p1 p2 o1 o2 : Fin 64 → EReal) : EReal :=
  ∑ b : Fin 64, if label (p1 b) (p2 b) ≠ c0 then term (p1 b) (p2 b) (o1 b) (o2 b) else c0

/-- The unordered pairs' squared differences, summed over the batch. -/
def sumSq (p1 p2 o1 o2 : Fin 64 → EReal) : EReal :=
  ∑ b : Fin 64, if label (p1 b) (p2 b) ≠ c0 then c0 else (o1 b - o2 b) * (o1 b - o2 b)

/-- One sampled pair's loss: the two averages, each 0 when it averages nothing. -/
def colLoss (p1 p2 o1 o2 : Fin 64 → EReal) : EReal :=
  (if 0 < cnt p1 p2 then Ideal.div (sumTerm p1 p2 o1 o2) (((max (cnt p1 p2) 1 : ℕ) : ℝ) : EReal) else c0)
    + (if 0 < 64 - cnt p1 p2 then Ideal.div (sumSq p1 p2 o1 o2) (((max (64 - cnt p1 p2) 1 : ℕ) : ℝ) : EReal) else c0)

/-- The loss: the mean over the 10000 sampled pairs. -/
def loss (P1 P2 O1 O2 : Fin 64 → Fin 10000 → EReal) : EReal :=
  Ideal.div (c0 + ∑ n : Fin 10000, colLoss (fun b => P1 b n) (fun b => P2 b n) (fun b => O1 b n) (fun b => O2 b n)) c10000

theorem cnt_le (p1 p2 : Fin 64 → EReal) : cnt p1 p2 ≤ 64 := by
  unfold cnt
  exact (Finset.card_filter_le _ _).trans (by simp)

end Cert.RankLoss

end
-- ==== Proof.Pix.lean ====
/-
  The sampled pixels. An index vector of 10000 words is in range when every word, read as a number, names a
  row (or a column) of a 384-wide axis; `pix g x y b n` is image `g`'s pixel of batch element `b` at the n-th
  sampled site (x[n], y[n]). (The reduction modulo 384 only makes the function total: it is the identity on an
  in-range word.)
-/
import Idealize.ShloMosaic.PureOps.Ideal
import Idealize.ShloMosaic.Lib.ValueIdx

noncomputable section

namespace Cert.RankLoss

open Idealize.ShloMosaic Idealize.ShloMosaic.ValueIdx

/-- Every word of the vector is below 384 (as a signed word: in [0, 384)). -/
def InRange (x : (⟨1, ![10000]⟩ : Shape).Idx → BitVec 32) : Prop := ∀ n : Fin 10000, (x (ix1 n)).toNat < 384

/-- Image `g`'s pixel of batch element `b` at the n-th sampled site. -/
def pix (g : (⟨4, ![64, 1, 384, 384]⟩ : Shape).Idx → EReal) (x y : (⟨1, ![10000]⟩ : Shape).Idx → BitVec 32)
    (b : Fin 64) (n : Fin 10000) : EReal :=
  g (ix4 b (0 : Fin 1) ⟨(x (ix1 n)).toNat % 384, Nat.mod_lt _ (by norm_num)⟩ ⟨(y (ix1 n)).toNat % 384, Nat.mod_lt _ (by norm_num)⟩)

end Cert.RankLoss

end
-- ==== Proof.RefLoss.lean ====
/-
  The reference's result, at the extended reals, is the ranking loss of its four gathered arrays.
-/
import proofs.«416620_j80083960201609_3_alg».proof.Proof.RefRead
import proofs.«416620_j80083960201609_3_alg».proof.Proof.Spec
import Idealize.ShloMosaic.Lib.ValueIdx
import Idealize.ShloMosaic.Lib.ValueIdxRank1
import Idealize.ShloMosaic.Lib.StableHlo.Predicate

noncomputable section

namespace Cert.ReferenceIdeal.RefLoss

open Cert.ReferenceIdeal Cert.ReferenceIdeal.Gen Cert.ReferenceIdeal.ReadP Cert.RankLoss
open Idealize.ShloMosaic Idealize.ShloMosaic.ValueIdx

/-! ## Words: the selects, the signed compare with zero, the signed maximum with one, and sixty-four minus a count -/

section Words

/-- A select on a decided proposition's bit is the `if`. -/
theorem select_ofBool_decide {α : Type} (P : Prop) [Decidable P] (a b : α) :
    Scalar.select (BitVec.ofBool (decide P)) a b = if P then a else b := by
  by_cases h : P <;> simp [Scalar.select, h]

/-- A select on "the small word is positive" is the `if` on its value. -/
theorem select_sgt_zero {α : Type} (w : BitVec 32) (hw : w.toNat < 2 ^ 31) (a b : α) :
    Scalar.select (IntOp.cmpi .sgt w 0#32) a b = if 0 < w.toNat then a else b := by
  have h := StableHlo.Predicate.sgt_iff_toNat (a := w) (b := 0#32) hw (by decide)
  unfold Scalar.select
  exact if_congr h rfl rfl

/-- The signed maximum of a small word and one, read signed, is the maximum of the values. -/
theorem toInt_maxsi_one (w : BitVec 32) (hw : w.toNat < 2 ^ 31) :
    (IntOp.maxsi w 1#32).toInt = ((max w.toNat 1 : ℕ) : ℤ) := by
  have hi : w.toInt = w.toNat := StableHlo.Predicate.toInt_eq_toNat_of_lt hw
  have h1 : (1#32 : BitVec 32).toInt = 1 := by decide
  unfold IntOp.maxsi
  split <;> rename_i hc <;> simp only [BitVec.slt, hi, h1, decide_eq_true_eq] at hc
  · rw [hi]; congr 1; omega
  · rw [h1]; have : max w.toNat 1 = 1 := by omega
    rw [this]; rfl

/-- Sixty-four minus a word of value at most sixty-four has the difference of the values. -/
theorem toNat_subi_64 (w : BitVec 32) (hw : w.toNat ≤ 64) : (IntOp.subi 64#32 w).toNat = 64 - w.toNat := by
  show (64#32 - w).toNat = _
  rw [BitVec.toNat_sub]
  have : (64#32 : BitVec 32).toNat = 64 := by decide
  rw [this]; omega

/-- The conversion of that maximum to a float is the natural number, as a real. -/
theorem sitofp_maxsi_one (w : BitVec 32) (hw : w.toNat < 2 ^ 31) :
    (((IntOp.maxsi w 1#32).toInt : ℝ) : EReal) = (((max w.toNat 1 : ℕ) : ℝ) : EReal) := by
  rw [toInt_maxsi_one w hw, Int.cast_natCast]

/-- The two guarded averages of one column, from the word `w` that counts the ordered pairs (its value `k` at most 64),
    the sum `s` over the ordered pairs and the sum `q` over the others. -/
theorem col_core (w : BitVec 32) (k : ℕ) (hw : w.toNat = k) (hk : k ≤ 64) (s q : EReal) :
    Scalar.select (IntOp.cmpi .sgt w 0#32) (Ideal.div s (((IntOp.maxsi w 1#32).toInt : ℝ) : EReal)) c0
      + Scalar.select (IntOp.cmpi .sgt (IntOp.subi 64#32 w) 0#32)
          (Ideal.div q (((IntOp.maxsi (IntOp.subi 64#32 w) 1#32).toInt : ℝ) : EReal)) c0
      = (if 0 < k then Ideal.div s (((max k 1 : ℕ) : ℝ) : EReal) else c0)
        + (if 0 < 64 - k then Ideal.div q (((max (64 - k) 1 : ℕ) : ℝ) : EReal) else c0) := by
  have h31 : w.toNat < 2 ^ 31 := by omega
  have hs : (IntOp.subi 64#32 w).toNat = 64 - k := by rw [toNat_subi_64 w (by omega), hw]
  have hs31 : (IntOp.subi 64#32 w).toNat < 2 ^ 31 := by omega
  rw [select_sgt_zero w h31, select_sgt_zero _ hs31, sitofp_maxsi_one w h31, sitofp_maxsi_one _ hs31, hs, hw]

end Words

/-! ## The reference's stages at one element: the label, the ordered-pair bit, the ordered pair's term -/

section Stages
variable (x0 x1 : (⟨S64x1x384x384, .f32⟩ : BufTy).Contents (Elt Ideal))
  (x2 x3 x4 x5 : (⟨S10000, .i32⟩ : BufTy).Contents (Elt Ideal))

/-- The label stage is `label` of the two gathered ground-truth values. -/
theorem v41_eq (i : S64x10000.Idx) :
    val_main_v41 (F := Ideal) x0 x2 x3 x4 x5 i
      = label (val_main_v15 (F := Ideal) x0 x2 x3 i) (val_main_v29 (F := Ideal) x0 x4 x5 i) := by
  rw [val_main_v41_apply, val_main_v34_apply, val_main_v32_apply, val_main_v31_apply, val_main_v30_apply,
    val_main_v33_apply, val_main_call1_v0_apply, val_main_v40_apply, val_main_v39_apply, val_main_v37_apply,
    val_main_v36_apply, val_main_v35_apply, val_main_v38_apply, val_main_call0_v0_apply, val_main_call0_v1_apply]
  rfl

/-- The "label is not zero" stage is the bit of that proposition. -/
theorem v72_eq (i : S64x10000.Idx) :
    val_main_v72 (F := Ideal) x0 x2 x3 x4 x5 i
      = BitVec.ofBool (decide (label (val_main_v15 (F := Ideal) x0 x2 x3 i) (val_main_v29 (F := Ideal) x0 x4 x5 i) ≠ c0)) := by
  rw [val_main_v72_apply, v41_eq, val_main_v71_apply]
  rfl

/-- The softplus stage is `term` of the four gathered values. -/
theorem v76_eq (i : S64x10000.Idx) :
    val_main_v76 (F := Ideal) x0 x1 x2 x3 x4 x5 i
      = term (val_main_v15 (F := Ideal) x0 x2 x3 i) (val_main_v29 (F := Ideal) x0 x4 x5 i)
          (val_main_v55 (F := Ideal) x1 x2 x3 i) (val_main_v69 (F := Ideal) x1 x4 x5 i) := by
  rw [val_main_v76_apply, val_main_call2_v4_apply, val_main_call2_v6_apply, val_main_call2_v5_apply,
    val_main_call2_v11_apply, val_main_call2_v1_apply, val_main_call2_v0_apply, val_main_call2_v10_apply,
    val_main_call2_v9_apply, val_main_call2_v8_apply, val_main_call2_v7_apply, val_main_call2_v3_apply,
    val_main_call2_v2_apply, val_main_v75_apply, val_main_v74_apply, val_main_v73_apply, v41_eq, val_main_v70_apply]
  rfl

/-! ## One column: the count, the two sums, the two guarded averages -/

/-- The integer sum of the widened bits down column `n` is the number of ordered pairs in it. -/
theorem v78_toNat (n : Fin 10000) :
    (val_main_v78 (F := Ideal) x0 x2 x3 x4 x5 (ix1 n)).toNat
      = cnt (fun b => val_main_v15 (F := Ideal) x0 x2 x3 (ix2 b n)) (fun b => val_main_v29 (F := Ideal) x0 x4 x5 (ix2 b n)) := by
  have h := StableHlo.Predicate.toNat_reduce_count_rows (n := 64) (m := 10000) (by norm_num)
    (val_main_v72 (F := Ideal) x0 x2 x3 x4 x5) natLt_1_32 reducesTo_S64x10000_S10000_d0 h_S_ (ix1 n)
  refine h.trans ?_
  unfold cnt
  refine congrArg Finset.card (Finset.filter_congr fun b _ => ?_)
  show val_main_v72 (F := Ideal) x0 x2 x3 x4 x5 (ix2 b n) = 1#1
    ↔ label (val_main_v15 (F := Ideal) x0 x2 x3 (ix2 b n)) (val_main_v29 (F := Ideal) x0 x4 x5 (ix2 b n)) ≠ c0
  rw [v72_eq, StableHlo.Predicate.ofBool_eq_one_iff, decide_eq_true_eq]

/-- The float sum down column `n` of the ordered pairs' terms. -/
theorem v84_eq (n : Fin 10000) :
    val_main_v84 (F := Ideal) x0 x1 x2 x3 x4 x5 (ix1 n)
      = sumTerm (fun b => val_main_v15 (F := Ideal) x0 x2 x3 (ix2 b n)) (fun b => val_main_v29 (F := Ideal) x0 x4 x5 (ix2 b n))
          (fun b => val_main_v55 (F := Ideal) x1 x2 x3 (ix2 b n)) (fun b => val_main_v69 (F := Ideal) x1 x4 x5 (ix2 b n)) := by
  rw [val_main_v84_apply, val_main_cst_26_apply]
  show Ideal.ofBits .f32 0x00000000#32 + _ = _
  rw [Ideal.ofBits_zero_f32, zero_add]
  unfold sumTerm
  refine Finset.sum_congr rfl fun b _ => ?_
  rw [show idx_main_v84 (ix1 n) b = ix2 b n from funext fun a => by match a with | ⟨0, _⟩ => rfl | ⟨1, _⟩ => rfl]
  rw [val_main_v83_apply, v72_eq, v76_eq, val_main_call3_v1_apply, val_main_call3_v0_apply, val_main_cst_25_apply,
    select_ofBool_decide]
  rfl

/-- The float sum down column `n` of the unordered pairs' squared differences. -/
theorem v94_eq (n : Fin 10000) :
    val_main_v94 (F := Ideal) x0 x1 x2 x3 x4 x5 (ix1 n)
      = sumSq (fun b => val_main_v15 (F := Ideal) x0 x2 x3 (ix2 b n)) (fun b => val_main_v29 (F := Ideal) x0 x4 x5 (ix2 b n))
          (fun b => val_main_v55 (F := Ideal) x1 x2 x3 (ix2 b n)) (fun b => val_main_v69 (F := Ideal) x1 x4 x5 (ix2 b n)) := by
  rw [val_main_v94_apply, val_main_cst_31_apply]
  show Ideal.ofBits .f32 0x00000000#32 + _ = _
  rw [Ideal.ofBits_zero_f32, zero_add]
  unfold sumSq
  refine Finset.sum_congr rfl fun b _ => ?_
  rw [show idx_main_v94 (ix1 n) b = ix2 b n from funext fun a => by match a with | ⟨0, _⟩ => rfl | ⟨1, _⟩ => rfl]
  rw [val_main_v93_apply, v72_eq, val_main_call5_v1_apply, val_main_call5_v0_apply, val_main_cst_30_apply,
    val_main_v92_apply, val_main_v70_apply, select_ofBool_decide]
  rfl

/-- Column `n`'s stage is `colLoss` of the four gathered columns. -/
theorem v100_eq (n : Fin 10000) :
    val_main_v100 (F := Ideal) x0 x1 x2 x3 x4 x5 (ix1 n)
      = colLoss (fun b => val_main_v15 (F := Ideal) x0 x2 x3 (ix2 b n)) (fun b => val_main_v29 (F := Ideal) x0 x4 x5 (ix2 b n))
          (fun b => val_main_v55 (F := Ideal) x1 x2 x3 (ix2 b n)) (fun b => val_main_v69 (F := Ideal) x1 x4 x5 (ix2 b n)) := by
  rw [val_main_v100_apply, val_main_v89_apply, val_main_v82_apply, val_main_v81_apply, val_main_c_24_apply,
    val_main_v88_apply, v84_eq, val_main_v87_apply, val_main_v86_apply, val_main_v85_apply, val_main_c_27_apply,
    val_main_call4_v1_apply, val_main_call4_v0_apply, val_main_cst_28_apply,
    val_main_v99_apply, val_main_v91_apply, val_main_v80_apply, val_main_v79_apply, val_main_c_23_apply,
    val_main_v90_apply, val_main_c_29_apply, val_main_v98_apply, v94_eq, val_main_v97_apply, val_main_v96_apply,
    val_main_v95_apply, val_main_c_32_apply, val_main_call6_v1_apply, val_main_call6_v0_apply, val_main_cst_33_apply]
  exact col_core _ _ (v78_toNat x0 x2 x3 x4 x5 n) (cnt_le _ _) _ _

end Stages

/-- The reference's scalar result is `loss` of the four arrays it gathers: the ground truth at the first and the
    second site of every pair, and the prediction at the first and the second site. -/
theorem ref_loss (x0 x1 : (⟨S64x1x384x384, .f32⟩ : BufTy).Contents (Elt Ideal))
    (x2 x3 x4 x5 : (⟨S10000, .i32⟩ : BufTy).Contents (Elt Ideal)) (i : S_.Idx) :
    val_main_v102 (F := Ideal) x0 x1 x2 x3 x4 x5 i
      = loss (fun b n => val_main_v15 (F := Ideal) x0 x2 x3 (ix2 b n)) (fun b n => val_main_v29 (F := Ideal) x0 x4 x5 (ix2 b n))
          (fun b n => val_main_v55 (F := Ideal) x1 x2 x3 (ix2 b n)) (fun b n => val_main_v69 (F := Ideal) x1 x4 x5 (ix2 b n)) := by
  rw [val_main_v102_apply, val_main_v101_apply, val_main_cst_34_apply, val_main_cst_35_apply]
  unfold loss
  refine congrArg (fun s => Ideal.div (c0 + s) c10000) ?_
  refine (Equiv.sum_comp (idxEquiv1 (n := 10000)).symm _).symm.trans ?_
  exact Finset.sum_congr rfl fun n _ => v100_eq x0 x1 x2 x3 x4 x5 n

end Cert.ReferenceIdeal.RefLoss

end
-- ==== Proof.LibGather.lean ====
/-
  The host's gather that selects columns of a matrix by a table of positions, read at an index.
-/
import Idealize.ShloMosaic.PureOps
import Idealize.ShloMosaic.Lib.ValueIdx

noncomputable section

namespace Cert.LibGather

open Idealize.ShloMosaic Idealize.ShloMosaic.ValueIdx

/-- An entry of a one-element list is that element, whatever the position. -/
theorem getElem_of_eq_singleton {β : Type} {l : List β} {x : β} (hl : l = [x]) (k : Nat) (hk : k < l.length) :
    l[k]'hk = x := by
  subst hl
  have hk0 : k = 0 := by simpa using hk
  subst hk0
  rfl

/-- SELECTING COLUMNS. A gather over a [B, N] matrix whose start indices are an [A, 1] column of positions, the
    rows kept whole (axis 0 an offset axis of slice size B) and axis 1 collapsed and start-indexed: entry (r, a)
    is the matrix at row r and the column position a's start index names, read signed and clamped into
    `[0, N - 1]`. -/
theorem gather_cols {α : Type} {B N A w : ℕ} (d : GatherDims ⟨2, ![B, N]⟩ ⟨2, ![A, 1]⟩ ⟨2, ![B, A]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (x : (⟨2, ![B, N]⟩ : Shape).Idx → α) (idx : IVec ⟨2, ![A, 1]⟩ w) (r : Fin B) (a : Fin A) (hN : 0 < N) :
    Host.gather d x idx (ix2 r a)
      = x (ix2 r ⟨min (idx (ix2 a (0 : Fin 1))).toInt.toNat (N - 1), by omega⟩) := by
  -- the axes kept on each side: the operand's one offset axis is 0, the result's one batch axis is 1
  have hsK : d.sKept = [0] := by
    show (List.finRange 2).filter (· ∉ d.collapsedSliceDims ++ d.operandBatchingDims) = [0]
    rw [hcoll, hob]; rfl
  have hbD : d.batchDims = [1] := by
    show (List.finRange 2).filter (· ∉ d.offsetDims) = [1]
    rw [hoff]; rfl
  have hlen : d.startIndexMap.length = 1 := by rw [hsim]; rfl
  -- the start-index entry result position (r, a) reads is row a of the column of positions
  have hsi : ∀ c, d.siIdx (ix2 r a) c = ix2 a (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, the offset axis: no start index, no batch coordinate, the result's row
    have hb : (⟨0, h0⟩ : Fin 2) ∉ d.operandBatchingDims := by rw [hob]; exact List.not_mem_nil
    have hm : (⟨0, h0⟩ : Fin 2) ∉ d.startIndexMap := by
      rw [hsim, List.mem_singleton]; intro e; exact Nat.zero_ne_one (congrArg Fin.val e)
    have hk : (⟨0, h0⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl
  | ⟨1, h1⟩ =>
    -- axis 1, collapsed and start-indexed: the clamped start index alone
    have hb : (⟨1, h1⟩ : Fin 2) ∉ d.operandBatchingDims := by rw [hob]; exact List.not_mem_nil
    have hk : (⟨1, h1⟩ : Fin 2) ∉ d.sKept := by
      rw [hsK, List.mem_singleton]; intro e; exact Nat.one_ne_zero (congrArg Fin.val e)
    have hm : (⟨1, h1⟩ : Fin 2) ∈ d.startIndexMap := by rw [hsim]; exact List.mem_singleton.mpr rfl
    have hsl : d.sliceSizes ⟨1, h1⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl

end Cert.LibGather

end
-- ==== Proof.RefPix.lean ====
/-
  The reference's gathers read the sampled pixels, and the precondition puts every index word in range.
-/
import proofs.«416620_j80083960201609_3_alg».proof.Proof.RefRead
import proofs.«416620_j80083960201609_3_alg».proof.Proof.Pix
import proofs.«416620_j80083960201609_3_alg».proof.Proof.Gen.Pre_finite_inputs
import proofs.«416620_j80083960201609_3_alg».proof.Proof.LibGather
import Idealize.ShloMosaic.Lib.ValueIdx
import Idealize.ShloMosaic.Lib.ReduceAll
import Idealize.ShloMosaic.Lib.StableHlo.Predicate

noncomputable section

namespace Cert.ReferenceIdeal.RefPix

open Cert.ReferenceIdeal Cert.ReferenceIdeal.Gen Cert.ReferenceIdeal.ReadP Cert.RankLoss
open Idealize.ShloMosaic Idealize.ShloMosaic.ValueIdx

/-- SELECTING PIXELS. A gather over a [64, 384, 384] stack of images whose start indices are a [10000, 2] table of
    (row, column) pairs, the stack's axis 0 kept whole (an offset axis of slice size 64) and axes 1 and 2 collapsed and
    start-indexed: entry (b, n) is image b at the row and the column site n's pair names, each read signed and
    clamped into [0, 383]. -/
theorem gather_sites {α : Type} {w : ℕ} (d : GatherDims ⟨3, ![64, 384, 384]⟩ ⟨2, ![10000, 2]⟩ ⟨2, ![64, 10000]⟩)
    (hoff : d.offsetDims = [0]) (hcoll : d.collapsedSliceDims = [1, 2]) (hob : d.operandBatchingDims = [])
    (hsim : d.startIndexMap = [1, 2]) (hivd : d.indexVectorDim = 1)
    (x : (⟨3, ![64, 384, 384]⟩ : Shape).Idx → α) (idx : IVec ⟨2, ![10000, 2]⟩ w) (b : Fin 64) (n : Fin 10000) :
    Host.gather d x idx (ix2 b n)
      = x (ix3 b ⟨min (idx (ix2 n (0 : Fin 2))).toInt.toNat 383, by omega⟩
            ⟨min (idx (ix2 n (1 : Fin 2))).toInt.toNat 383, by omega⟩) := by
  -- the axes kept on each side: the operand's one offset axis is 0, the result's one batch axis is 1
  have hsK : d.sKept = [0] := by
    show (List.finRange 3).filter (· ∉ d.collapsedSliceDims ++ d.operandBatchingDims) = [0]
    rw [hcoll, hob]; rfl
  have hbD : d.batchDims = [1] := by
    show (List.finRange 2).filter (· ∉ d.offsetDims) = [1]
    rw [hoff]; rfl
  -- the start-index entry that result position (b, n) reads for component k is (n, k)
  have hsi : ∀ (c : Fin d.startIndexMap.length) (k : Fin 2), c.val = k.val → d.siIdx (ix2 b n) c = ix2 n k := by
    intro c k hck
    funext e
    match e with
    | ⟨0, _⟩ =>
      unfold GatherDims.siIdx
      rw [dif_neg (by rw [hivd]; simp)]
      unfold GatherDims.siCoord
      apply Fin.ext
      simp only [Fin.val_cast]
      rw [Cert.LibGather.getElem_of_eq_singleton hbD]
    | ⟨1, _⟩ =>
      unfold GatherDims.siIdx
      rw [dif_pos (by rw [hivd])]
      apply Fin.ext
      exact hck
  unfold Host.gather
  congr 1
  funext ax
  apply Fin.ext
  match ax with
  | ⟨0, h0⟩ =>
    -- axis 0, the offset axis: no start index, no batch coordinate, the result's row
    have hb : (⟨0, h0⟩ : Fin 3) ∉ d.operandBatchingDims := by rw [hob]; exact List.not_mem_nil
    have hm : (⟨0, h0⟩ : Fin 3) ∉ d.startIndexMap := by
      rw [hsim]; exact (by decide : (0 : Fin 3) ∉ ([1, 2] : List (Fin 3)))
    have hk : (⟨0, h0⟩ : Fin 3) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [Cert.LibGather.getElem_of_eq_singleton hoff]
  | ⟨1, h1⟩ =>
    -- axis 1, collapsed and start-indexed by the pair's first component: the clamped row alone
    have hb : (⟨1, h1⟩ : Fin 3) ∉ d.operandBatchingDims := by rw [hob]; exact List.not_mem_nil
    have hk : (⟨1, h1⟩ : Fin 3) ∉ d.sKept := by
      rw [hsK]; exact (by decide : (1 : Fin 3) ∉ ([0] : List (Fin 3)))
    have hm : (⟨1, h1⟩ : Fin 3) ∈ d.startIndexMap := by
      rw [hsim]; exact (by decide : (1 : Fin 3) ∈ ([1, 2] : List (Fin 3)))
    have hsl : d.sliceSizes ⟨1, h1⟩ = 1 :=
      d.slice_collapsed _ (by rw [hcoll]; exact (by decide : (1 : Fin 3) ∈ ([1, 2] : List (Fin 3))))
    have e1 := hsi ⟨d.startIndexMap.idxOf ⟨1, h1⟩, List.idxOf_lt_length_iff.2 hm⟩ (0 : Fin 2)
      (by show List.idxOf (⟨1, h1⟩ : Fin 3) d.startIndexMap = 0; rw [hsim]; rfl)
    simp only [GatherDims.operandIdx, GatherDims.batchCoord_eq_zero _ _ _ hb, GatherDims.offCoord_eq_zero _ _ _ hk,
      Nat.add_zero, GatherDims.start, dif_pos hm]
    rw [e1, hsl]
    rfl
  | ⟨2, h2⟩ =>
    -- axis 2, collapsed and start-indexed by the pair's second component: the clamped column alone
    have hb : (⟨2, h2⟩ : Fin 3) ∉ d.operandBatchingDims := by rw [hob]; exact List.not_mem_nil
    have hk : (⟨2, h2⟩ : Fin 3) ∉ d.sKept := by
      rw [hsK]; exact (by decide : (2 : Fin 3) ∉ ([0] : List (Fin 3)))
    have hm : (⟨2, h2⟩ : Fin 3) ∈ d.startIndexMap := by
      rw [hsim]; exact (by decide : (2 : Fin 3) ∈ ([1, 2] : List (Fin 3)))
    have hsl : d.sliceSizes ⟨2, h2⟩ = 1 :=
      d.slice_collapsed _ (by rw [hcoll]; exact (by decide : (2 : Fin 3) ∈ ([1, 2] : List (Fin 3))))
    have e2 := hsi ⟨d.startIndexMap.idxOf ⟨2, h2⟩, List.idxOf_lt_length_iff.2 hm⟩ (1 : Fin 2)
      (by show List.idxOf (⟨2, h2⟩ : Fin 3) d.startIndexMap = 1; rw [hsim]; rfl)
    simp only [GatherDims.operandIdx, GatherDims.batchCoord_eq_zero _ _ _ hb, GatherDims.offCoord_eq_zero _ _ _ hk,
      Nat.add_zero, GatherDims.start, dif_pos hm]
    rw [e2, hsl]
    rfl

/-- A two-column table read at (n, 0) and at (n, 1): the first and the second column at row n. -/
theorem cols_apply {α : Type}
    (h : Shape.Concatenates [(⟨2, ![10000, 1]⟩ : Shape), ⟨2, ![10000, 1]⟩] ⟨2, ![10000, 2]⟩ 1)
    (c0 c1 : (⟨2, ![10000, 1]⟩ : Shape).Idx → α) (n : Fin 10000) :
    concatenate ⟨2, ![10000, 2]⟩ 1 [⟨⟨2, ![10000, 1]⟩, c0⟩, ⟨⟨2, ![10000, 1]⟩, c1⟩] h (ix2 n (0 : Fin 2)) = c0 (ix2 n (0 : Fin 1))
      ∧ concatenate ⟨2, ![10000, 2]⟩ 1 [⟨⟨2, ![10000, 1]⟩, c0⟩, ⟨⟨2, ![10000, 1]⟩, c1⟩] h (ix2 n (1 : Fin 2)) = c1 (ix2 n (0 : Fin 1)) := by
  constructor
  · refine concatenate_pair_apply_left 1 c0 c1 h _ rfl _ ?_
    intro e
    match e with
    | ⟨0, _⟩ => rfl
    | ⟨1, _⟩ => rfl
  · refine concatenate_pair_apply_right 1 c0 c1 h _ rfl rfl _ ?_ ?_
    · intro e he
      match e with
      | ⟨0, _⟩ => rfl
      | ⟨1, _⟩ => exact absurd rfl he
    · rfl

/-- The wrap of a negative index (add 384 to a word that tests negative) leaves an in-range word alone. -/
theorem wrap_of_lt (w z a : BitVec 32) (hz : z = 0#32) (hw : w.toNat < 384) :
    Scalar.select (IntOp.cmpi .slt w z) a w = w := by
  subst hz
  have hn : ¬ IntOp.cmpi .slt w 0#32 = 1#1 := by
    rw [StableHlo.Predicate.slt_iff_toNat (by omega) (by decide)]
    exact Nat.not_lt_zero _
  rw [eq_zero_of_ne_one hn, select_zero]

/-- An in-range word names the same row (or column) read signed and clamped into [0, 383] as reduced modulo 384. -/
theorem clamp_of_lt (w : BitVec 32) (hw : w.toNat < 384) : min w.toInt.toNat 383 = w.toNat % 384 := by
  rw [StableHlo.Predicate.toInt_eq_toNat_of_lt (by omega), Int.toNat_natCast, Nat.mod_eq_of_lt hw]
  omega

/-- The reshape [64, 1, 384, 384] → [64, 384, 384] read at (b, r, c) is the image stack at (b, 0, r, c). -/
theorem reshape_apply {α : Type} (g : (⟨4, ![64, 1, 384, 384]⟩ : Shape).Idx → α)
    (h : (⟨4, ![64, 1, 384, 384]⟩ : Shape).ShapeCasts ⟨3, ![64, 384, 384]⟩) (b : Fin 64) (r c : Fin 384) :
    shapeCast ⟨3, ![64, 384, 384]⟩ g h (ix3 b r c) = g (ix4 b (0 : Fin 1) r c) := by
  refine shapeCast_apply g h _ _ ?_
  rw [Shape.rowMajor_val_four, Shape.rowMajor_val_three]
  show ((b.val * 1 + 0) * 384 + r.val) * 384 + c.val = (b.val * 384 + r.val) * 384 + c.val
  omega

/-- A wrapped index vector laid out as a [10000, 1] column reads, at (n, 0), the vector's own word n when the vector
    is in range. -/
theorem col_apply (hb1 : (⟨1, ![10000]⟩ : Shape).BroadcastsInDim ⟨2, ![10000, 1]⟩ ![0])
    (hb0 : (⟨0, ![]⟩ : Shape).BroadcastsInDim ⟨1, ![10000]⟩ ![])
    (x a : IVec ⟨1, ![10000]⟩ 32) (hx : InRange x) (n : Fin 10000) :
    broadcastInDim ⟨2, ![10000, 1]⟩ ![0] hb1
        (select (cmpi .slt x (broadcastInDim ⟨1, ![10000]⟩ ![] hb0 (constantI ⟨0, ![]⟩ 32 0#32))) a x)
        (ix2 n (0 : Fin 1))
      = x (ix1 n) := by
  rw [broadcastInDim_apply _ hb1 _ _ (ix1 n) (fun e => match e with
    | ⟨0, _⟩ => by show n.val = if (10000 : ℕ) = 1 then 0 else n.val; rw [if_neg (by decide)])]
  show Scalar.select (IntOp.cmpi .slt (x (ix1 n)) _) (a (ix1 n)) (x (ix1 n)) = x (ix1 n)
  exact wrap_of_lt _ _ _ rfl (hx n)

/-- THE SAMPLED PIXEL. The gather of the reshaped image stack by the table whose two columns are the wrapped row and
    column vectors reads, at (b, n), image b's pixel at site n, when both vectors are in range. -/
theorem gather_pix (d : GatherDims ⟨3, ![64, 384, 384]⟩ ⟨2, ![10000, 2]⟩ ⟨2, ![64, 10000]⟩)
    (hoff : d.offsetDims = [0]) (hcoll : d.collapsedSliceDims = [1, 2]) (hob : d.operandBatchingDims = [])
    (hsim : d.startIndexMap = [1, 2]) (hivd : d.indexVectorDim = 1)
    (g : (⟨4, ![64, 1, 384, 384]⟩ : Shape).Idx → EReal)
    (hsc : (⟨4, ![64, 1, 384, 384]⟩ : Shape).ShapeCasts ⟨3, ![64, 384, 384]⟩)
    (hcc : Shape.Concatenates [(⟨2, ![10000, 1]⟩ : Shape), ⟨2, ![10000, 1]⟩] ⟨2, ![10000, 2]⟩ 1)
    (cx cy : (⟨2, ![10000, 1]⟩ : Shape).Idx → BitVec 32) (x y : (⟨1, ![10000]⟩ : Shape).Idx → BitVec 32)
    (hx : InRange x) (hy : InRange y)
    (hcx : ∀ n : Fin 10000, cx (ix2 n (0 : Fin 1)) = x (ix1 n))
    (hcy : ∀ n : Fin 10000, cy (ix2 n (0 : Fin 1)) = y (ix1 n)) (b : Fin 64) (n : Fin 10000) :
    Host.gather d (shapeCast ⟨3, ![64, 384, 384]⟩ g hsc)
        (concatenate ⟨2, ![10000, 2]⟩ 1 [⟨⟨2, ![10000, 1]⟩, cx⟩, ⟨⟨2, ![10000, 1]⟩, cy⟩] hcc) (ix2 b n)
      = pix g x y b n := by
  obtain ⟨e0, e1⟩ := cols_apply hcc cx cy n
  rw [gather_sites d hoff hcoll hob hsim hivd, reshape_apply]
  unfold pix
  congr 1
  funext a
  match a with
  | ⟨0, _⟩ => rfl
  | ⟨1, _⟩ => rfl
  | ⟨2, _⟩ =>
    apply Fin.ext
    show min (BitVec.toInt _).toNat 383 = (x (ix1 n)).toNat % 384
    rw [e0, hcx n, clamp_of_lt _ (hx n)]
  | ⟨3, _⟩ =>
    apply Fin.ext
    show min (BitVec.toInt _).toNat 383 = (y (ix1 n)).toNat % 384
    rw [e1, hcy n, clamp_of_lt _ (hy n)]

/-- A word that tests nonnegative and below 384 as a signed word is below 384 as a number. -/
theorem toNat_lt_384 (w : BitVec 32) (h0 : IntOp.cmpi .sge w 0#32 = 1#1) (h1 : IntOp.cmpi .slt w 384#32 = 1#1) :
    w.toNat < 384 := by
  rw [IntOp.cmpi_sge] at h0
  rw [IntOp.cmpi_slt] at h1
  have e0 : (0#32 : BitVec 32).toInt = 0 := by decide
  have e1 : (384#32 : BitVec 32).toInt = 384 := by decide
  rw [e0] at h0
  rw [e1] at h1
  have hw := w.isLt
  rw [BitVec.toInt_eq_toNat_cond] at h0 h1
  split at h0 <;> omega

/-- The conjunction of two masks, read at an index. -/
theorem andi_ix {s : Shape} {w : ℕ} (p q : IVec s w) (i : s.Idx) : andi p q i = IntOp.andi (p i) (q i) := rfl

/-- One range conjunct of the precondition: if the conjunction over all words of "nonnegative and below 384"
    came out 1, every word of the vector is below 384. -/
theorem inRange_of_all (a : IVec ⟨1, ![10000]⟩ 32)
    (hb : (⟨0, ![]⟩ : Shape).BroadcastsInDim ⟨1, ![10000]⟩ (![] : Fin 0 → Fin 1))
    (hr : (⟨1, ![10000]⟩ : Shape).ReducesTo [0] ⟨0, ![]⟩) (h0 : 0 < (⟨0, ![]⟩ : Shape).numel) (init : IVec ⟨0, ![]⟩ 1)
    (e : Host.reduce IntOp.andi
          (andi (cmpi .sge a (broadcastInDim ⟨1, ![10000]⟩ ![] hb (constantI ⟨0, ![]⟩ 32 0#32)))
            (cmpi .slt a (broadcastInDim ⟨1, ![10000]⟩ ![] hb (constantI ⟨0, ![]⟩ 32 384#32)))) init hr h0 ix0 = 1#1) :
    InRange a := by
  intro n
  haveI : Subsingleton (⟨0, ![]⟩ : Shape).Idx := ⟨fun a b => funext fun d => d.elim0⟩
  have k := Host.reduce_andi_all _ _ _ _ _ e (ix1 n)
  rw [andi_ix, IntOp.andi_eq_one] at k
  exact toNat_lt_384 _ k.1 k.2

/-- The ground truth at the first site of every pair. -/
theorem ref_pix15 (g : (⟨S64x1x384x384, .f32⟩ : BufTy).Contents (Elt Ideal)) (x y : (⟨S10000, .i32⟩ : BufTy).Contents (Elt Ideal))
    (hx : InRange x) (hy : InRange y) (b : Fin 64) (n : Fin 10000) :
    val_main_v15 (F := Ideal) g x y (ix2 b n) = pix g x y b n := by
  unfold val_main_v15 val_main_v0 val_main_v14 val_main_v12 val_main_v13 val_main_v6 val_main_v11 val_main_v3 val_main_v8
    val_main_v2 val_main_v7 val_main_c val_main_c_1
  exact gather_pix _ rfl rfl rfl rfl rfl g _ _ _ _ x y hx hy (fun n => col_apply _ _ x _ hx n)
    (fun n => col_apply _ _ y _ hy n) b n

/-- The ground truth at the second site. -/
theorem ref_pix29 (g : (⟨S64x1x384x384, .f32⟩ : BufTy).Contents (Elt Ideal)) (x y : (⟨S10000, .i32⟩ : BufTy).Contents (Elt Ideal))
    (hx : InRange x) (hy : InRange y) (b : Fin 64) (n : Fin 10000) :
    val_main_v29 (F := Ideal) g x y (ix2 b n) = pix g x y b n := by
  unfold val_main_v29 val_main_v0 val_main_v28 val_main_v26 val_main_v27 val_main_v20 val_main_v25 val_main_v17 val_main_v22
    val_main_v16 val_main_v21 val_main_c_3 val_main_c_5
  exact gather_pix _ rfl rfl rfl rfl rfl g _ _ _ _ x y hx hy (fun n => col_apply _ _ x _ hx n)
    (fun n => col_apply _ _ y _ hy n) b n

/-- The prediction at the first site. -/
theorem ref_pix55 (g : (⟨S64x1x384x384, .f32⟩ : BufTy).Contents (Elt Ideal)) (x y : (⟨S10000, .i32⟩ : BufTy).Contents (Elt Ideal))
    (hx : InRange x) (hy : InRange y) (b : Fin 64) (n : Fin 10000) :
    val_main_v55 (F := Ideal) g x y (ix2 b n) = pix g x y b n := by
  unfold val_main_v55 val_main_v1 val_main_v54 val_main_v52 val_main_v53 val_main_v46 val_main_v51 val_main_v43 val_main_v48
    val_main_v42 val_main_v47 val_main_c_13 val_main_c_15
  exact gather_pix _ rfl rfl rfl rfl rfl g _ _ _ _ x y hx hy (fun n => col_apply _ _ x _ hx n)
    (fun n => col_apply _ _ y _ hy n) b n

/-- The prediction at the second site. -/
theorem ref_pix69 (g : (⟨S64x1x384x384, .f32⟩ : BufTy).Contents (Elt Ideal)) (x y : (⟨S10000, .i32⟩ : BufTy).Contents (Elt Ideal))
    (hx : InRange x) (hy : InRange y) (b : Fin 64) (n : Fin 10000) :
    val_main_v69 (F := Ideal) g x y (ix2 b n) = pix g x y b n := by
  unfold val_main_v69 val_main_v1 val_main_v68 val_main_v66 val_main_v67 val_main_v60 val_main_v65 val_main_v57 val_main_v62
    val_main_v56 val_main_v61 val_main_c_17 val_main_c_19
  exact gather_pix _ rfl rfl rfl rfl rfl g _ _ _ _ x y hx hy (fun n => col_apply _ _ x _ hx n)
    (fun n => col_apply _ _ y _ hy n) b n

/-- The precondition's four range conjuncts: every word of each index vector is in [0, 384). -/
theorem inRange_of_pre (a0 a1 : FVec Ideal Cert.Pre_finite_inputs.S64x1x384x384 .f32) (a2 a3 a4 a5 : IVec Cert.Pre_finite_inputs.S10000 32)
    (h : Cert.Pre_finite_inputs.fn (F := Ideal) a0 a1 a2 a3 a4 a5 = fun _ => 1#1) :
    InRange a2 ∧ InRange a3 ∧ InRange a4 ∧ InRange a5 := by
  have e := congrFun h ix0
  unfold Cert.Pre_finite_inputs.fn Cert.Pre_finite_inputs.fn_part1 Cert.Pre_finite_inputs.fn_part2 at e
  dsimp only at e
  simp only [andi_ix, IntOp.andi_eq_one] at e
  obtain ⟨⟨⟨⟨⟨-, -⟩, c2⟩, c3⟩, c4⟩, c5⟩ := e
  exact ⟨inRange_of_all a2 _ _ _ _ c2, inRange_of_all a3 _ _ _ _ c3, inRange_of_all a4 _ _ _ _ c4,
    inRange_of_all a5 _ _ _ _ c5⟩

end Cert.ReferenceIdeal.RefPix

end
-- ==== Proof.KernelPix.lean ====
/-
  What the kernel's region finds in its four input arrays: the sampled pixels, in the first 10000 columns.
-/
import proofs.«416620_j80083960201609_3_alg».proof.Proof.FrameKernelIdeal
import proofs.«416620_j80083960201609_3_alg».proof.Proof.Pix
import proofs.«416620_j80083960201609_3_alg».proof.Proof.LibGather
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.KernelVsHost

noncomputable section

namespace Cert.KernelIdeal.KernelPix

open Cert.KernelIdeal Cert.KernelIdeal.Gen Cert.KernelIdeal.GenP Cert.RankLoss
open Idealize.ShloMosaic Idealize.ShloMosaic.TcCoe Idealize.ShloMosaic.ValueIdx Idealize.SL.Sem

variable (m : (ℓ : Loc nD τ sig) → Buf (Elt Ideal) ℓ)

/-! ## The host stretch's arrays as functions

The host operations before the region compute, from the two images and the four index vectors, one table of
sampled pixels. Its pieces are named here so that the run of the operations is an equation between closed
terms, and each piece is then read at an index on its own. -/

/-- Both images as rows of 147456 pixels: rows 0..63 the first image's batch elements, rows 64..127 the second's. -/
def imgs (g o : S64x1x384x384.Idx → EReal) : S128x147456.Idx → EReal :=
  concatenate S128x147456 0
    [⟨S64x147456, shapeCast S64x147456 (shapeCast S64x384x384 g shapeCasts_S64x1x384x384_S64x384x384) shapeCasts_S64x384x384_S64x147456⟩,
     ⟨S64x147456, shapeCast S64x147456 (shapeCast S64x384x384 o shapeCasts_S64x1x384x384_S64x384x384) shapeCasts_S64x384x384_S64x147456⟩]
    concatenates_S64x147456_S64x147456_S128x147456_d0

/-- The flattened position of each sampled site, as 32-bit words: x · 384 + y. -/
def site (x y : S10000.Idx → BitVec 32) : S10000.Idx → BitVec 32 :=
  addi (muli x (broadcastInDim S10000 ![] bcast_S_S10000 (constantI S_ 32 384#32))) y

/-- A vector of 10000 positions padded at its end to 10240 entries with the word v. -/
def padded (s : S10000.Idx → BitVec 32) (v : S_.Idx → BitVec 32) : S10240.Idx → BitVec 32 :=
  pad S10240 ![0] ![240] ![0] s v pads_S10000_S10240_02400 h_S_

/-- The two padded position vectors one after the other. -/
def sites (s₁ s₂ : S10000.Idx → BitVec 32) (v₁ v₂ : S_.Idx → BitVec 32) : S20480.Idx → BitVec 32 :=
  concatenate S20480 0 [⟨S10240, padded s₁ v₁⟩, ⟨S10240, padded s₂ v₂⟩] concatenates_S10240_S10240_S20480_d0

/-- The columns of G the positions name: a [128, 20480] table. -/
def taken (G : S128x147456.Idx → EReal) (idx : S20480.Idx → BitVec 32) : S128x20480.Idx → EReal :=
  Host.gather gather_S128x147456_S20480x1_S128x20480_0_1_n_n_1_1_1281 G
    (broadcastInDim S20480x1 ![0] bcast_S20480_S20480x1_0 idx)

/-! ## The pieces read at an index -/

/-- A row of the first image, read at pixel position q: the image at row q / 384, column q % 384, given as
    the index k with those coordinates. -/
theorem imgs_apply_left (g o : S64x1x384x384.Idx → EReal) (b : Fin 64) (q : Fin 147456) (k : S64x1x384x384.Idx)
    (hk0 : (k 0).val = b.val) (hk : (k 2).val * 384 + (k 3).val = q.val) :
    imgs g o (ix2 (⟨b.val, by omega⟩ : Fin 128) q) = g k := by
  unfold imgs
  have h1 : (k 1).val = 0 := by have h : (k 1).val < 1 := (k 1).isLt; omega
  have h2 : (k 2).val < 384 := (k 2).isLt
  have h3 : (k 3).val < 384 := (k 3).isLt
  rw [concatenate_pair_apply_left (t := S128x147456) (s₁ := S64x147456) (s₂ := S64x147456) (0 : Fin 2) _ _ concatenates_S64x147456_S64x147456_S128x147456_d0
    (ix2 (⟨b.val, by omega⟩ : Fin 128) q) rfl (ix2 b q) (fun a => match a with | ⟨0, _⟩ => rfl | ⟨1, _⟩ => rfl)]
  rw [shapeCast_apply _ shapeCasts_S64x384x384_S64x147456 (ix2 b q) (ix3 b (k 2) (k 3))
    (by rw [Shape.rowMajor_val_three, Shape.rowMajor_val_two]
        show (b.val * 384 + (k 2).val) * 384 + (k 3).val = b.val * 147456 + q.val
        omega)]
  exact shapeCast_apply g shapeCasts_S64x1x384x384_S64x384x384 (ix3 b (k 2) (k 3)) k
    (by rw [Shape.rowMajor_val_four, Shape.rowMajor_val_three]
        show (((k 0).val * 1 + (k 1).val) * 384 + (k 2).val) * 384 + (k 3).val = (b.val * 384 + (k 2).val) * 384 + (k 3).val
        omega)

/-- A row of the second image (rows 64..127 of the table of rows), read at pixel position q. -/
theorem imgs_apply_right (g o : S64x1x384x384.Idx → EReal) (b : Fin 64) (q : Fin 147456) (k : S64x1x384x384.Idx)
    (hk0 : (k 0).val = b.val) (hk : (k 2).val * 384 + (k 3).val = q.val) :
    imgs g o (ix2 (⟨64 + b.val, by omega⟩ : Fin 128) q) = o k := by
  unfold imgs
  have h1 : (k 1).val = 0 := by have h : (k 1).val < 1 := (k 1).isLt; omega
  have h2 : (k 2).val < 384 := (k 2).isLt
  have h3 : (k 3).val < 384 := (k 3).isLt
  rw [concatenate_pair_apply_right (t := S128x147456) (s₁ := S64x147456) (s₂ := S64x147456) (0 : Fin 2) _ _ concatenates_S64x147456_S64x147456_S128x147456_d0
    (ix2 (⟨64 + b.val, by omega⟩ : Fin 128) q) rfl rfl (ix2 b q)
    (fun a ha => match a with | ⟨0, _⟩ => absurd rfl ha | ⟨1, _⟩ => rfl)
    (by show b.val + 64 = 64 + b.val; omega)]
  rw [shapeCast_apply _ shapeCasts_S64x384x384_S64x147456 (ix2 b q) (ix3 b (k 2) (k 3))
    (by rw [Shape.rowMajor_val_three, Shape.rowMajor_val_two]
        show (b.val * 384 + (k 2).val) * 384 + (k 3).val = b.val * 147456 + q.val
        omega)]
  exact shapeCast_apply o shapeCasts_S64x1x384x384_S64x384x384 (ix3 b (k 2) (k 3)) k
    (by rw [Shape.rowMajor_val_four, Shape.rowMajor_val_three]
        show (((k 0).val * 1 + (k 1).val) * 384 + (k 2).val) * 384 + (k 3).val = (b.val * 384 + (k 2).val) * 384 + (k 3).val
        omega)

/-- For in-range words the flattened position does not wrap: as a number it is x · 384 + y. -/
theorem site_toNat (x y : S10000.Idx → BitVec 32) (hx : InRange x) (hy : InRange y) (n : Fin 10000) :
    (site x y (ix1 n)).toNat = (x (ix1 n)).toNat * 384 + (y (ix1 n)).toNat := by
  have h1 := hx n
  have h2 := hy n
  show (x (ix1 n) * 384#32 + y (ix1 n)).toNat = _
  rw [BitVec.toNat_add, BitVec.toNat_mul]
  show ((x (ix1 n)).toNat * 384 % 2 ^ 32 + (y (ix1 n)).toNat) % 2 ^ 32 = _
  have hm : (x (ix1 n)).toNat * 384 < 2 ^ 32 := by omega
  rw [Nat.mod_eq_of_lt hm, Nat.mod_eq_of_lt (by omega)]

/-- The first 10000 entries of the padded pair are the first vector's. -/
theorem sites_apply_left (s₁ s₂ : S10000.Idx → BitVec 32) (v₁ v₂ : S_.Idx → BitVec 32) (n : Fin 10000) :
    sites s₁ s₂ v₁ v₂ (ix1 (⟨n.val, by omega⟩ : Fin 20480)) = s₁ (ix1 n) := by
  unfold sites
  rw [concatenate_pair_apply_left (t := S20480) (s₁ := S10240) (s₂ := S10240) (0 : Fin 1) _ _ concatenates_S10240_S10240_S20480_d0
    (ix1 (⟨n.val, by omega⟩ : Fin 20480)) rfl (ix1 (⟨n.val, by omega⟩ : Fin 10240)) (fun a => match a with | ⟨0, _⟩ => rfl)]
  unfold padded
  exact pad_apply_of_inside _ _ _ s₁ v₁ pads_S10000_S10240_02400 h_S_ _ (ix1 n)
    (fun a => match a with | ⟨0, _⟩ => by show n.val = 0 + n.val * (0 + 1); omega)

/-- Entries 10240 .. 20239 of the padded pair are the second vector's. -/
theorem sites_apply_right (s₁ s₂ : S10000.Idx → BitVec 32) (v₁ v₂ : S_.Idx → BitVec 32) (n : Fin 10000) :
    sites s₁ s₂ v₁ v₂ (ix1 (⟨10240 + n.val, by omega⟩ : Fin 20480)) = s₂ (ix1 n) := by
  unfold sites
  rw [concatenate_pair_apply_right (t := S20480) (s₁ := S10240) (s₂ := S10240) (0 : Fin 1) _ _ concatenates_S10240_S10240_S20480_d0
    (ix1 (⟨10240 + n.val, by omega⟩ : Fin 20480)) rfl rfl (ix1 (⟨n.val, by omega⟩ : Fin 10240))
    (fun a ha => match a with | ⟨0, _⟩ => absurd rfl ha)
    (by show n.val + 10240 = 10240 + n.val; omega)]
  unfold padded
  exact pad_apply_of_inside _ _ _ s₂ v₂ pads_S10000_S10240_02400 h_S_ _ (ix1 n)
    (fun a => match a with | ⟨0, _⟩ => by show n.val = 0 + n.val * (0 + 1); omega)

/-- The table of taken columns at (r, a), when position a's word reads (signed) as the number q below 147456:
    row r of G at column q. -/
theorem taken_apply (G : S128x147456.Idx → EReal) (idx : S20480.Idx → BitVec 32) (r : Fin 128) (a : Fin 20480)
    (q : Fin 147456) (hq : (idx (ix1 a)).toInt = (q.val : ℤ)) :
    taken G idx (ix2 r a) = G (ix2 r q) := by
  unfold taken
  rw [Cert.LibGather.gather_cols gather_S128x147456_S20480x1_S128x20480_0_1_n_n_1_1_1281 rfl rfl rfl rfl rfl rfl G _ r a (by norm_num)]
  have hb : broadcastInDim S20480x1 ![0] bcast_S20480_S20480x1_0 idx (ix2 a (0 : Fin 1)) = idx (ix1 a) :=
    broadcastInDim_apply _ bcast_S20480_S20480x1_0 idx (ix2 a (0 : Fin 1)) (ix1 a)
      (fun a' => match a' with | ⟨0, _⟩ => rfl)
  congr 1
  funext d
  match d with
  | ⟨0, _⟩ => rfl
  | ⟨1, _⟩ =>
    apply Fin.ext
    show min (broadcastInDim S20480x1 ![0] bcast_S20480_S20480x1_0 idx (ix2 a (0 : Fin 1))).toInt.toNat (147456 - 1) = q.val
    rw [hb, hq, Int.toNat_natCast]
    have := q.isLt
    omega

/-! ## The run of the host operations

The stretch is cut in three: the first list of operations (the rows of pixels, the flattened positions), the five
lists that pad, join and take, and the four slices. The middle and the last part are run from arbitrary contents. -/

/-- The three parts, one after the other. -/
theorem V0_split (c : Dev nD) :
    V0 (F := Ideal) m c
      = StableHlo.after hostOps0_6 (StableHlo.after (List.flatten [hostOps0_1, hostOps0_2, hostOps0_3, hostOps0_4, hostOps0_5])
          (StableHlo.after hostOps0 (fun b => m (c, b)))) := by
  show StableHlo.after (List.flatten [hostOps0, hostOps0_1, hostOps0_2, hostOps0_3, hostOps0_4, hostOps0_5, hostOps0_6]) _ = _
  rw [← StableHlo.after_append, ← StableHlo.after_append]
  rfl

open Idealize.ShloMosaic.StableHlo in
/-- The first part leaves the rows of pixels of both images in main_v4. -/
theorem first_v4 (c : Dev nD) :
    (StableHlo.after (hostOps0 (F := Ideal)) (fun b => m (c, b)) (Proc.devRef .tc main_v4) : S128x147456.Idx → EReal)
      = imgs (m ((c : Thread nD τ).loc main_arg0)) (m ((c : Thread nD τ).loc main_arg1)) := by
  simp only [hostOps0]
  after_results
  rfl

open Idealize.ShloMosaic.StableHlo in
/-- The first part leaves the first site's flattened positions in main_v7. -/
theorem first_v7 (c : Dev nD) :
    (StableHlo.after (hostOps0 (F := Ideal)) (fun b => m (c, b)) (Proc.devRef .tc main_v7) : S10000.Idx → BitVec 32)
      = site (m ((c : Thread nD τ).loc main_arg2)) (m ((c : Thread nD τ).loc main_arg3)) := by
  simp only [hostOps0]
  after_results
  rfl

open Idealize.ShloMosaic.StableHlo in
/-- The first part leaves the second site's flattened positions in main_v10. -/
theorem first_v10 (c : Dev nD) :
    (StableHlo.after (hostOps0 (F := Ideal)) (fun b => m (c, b)) (Proc.devRef .tc main_v10) : S10000.Idx → BitVec 32)
      = site (m ((c : Thread nD τ).loc main_arg4)) (m ((c : Thread nD τ).loc main_arg5)) := by
  simp only [hostOps0]
  after_results
  rfl

open Idealize.ShloMosaic.StableHlo in
/-- The middle part, from any contents W: main_v14 holds the columns of W's main_v4 that W's two position vectors,
    padded and joined, name. -/
theorem mid_v14 (W : Valuation τ sig (Elt Ideal)) :
    (StableHlo.after (List.flatten [hostOps0_1, hostOps0_2, hostOps0_3, hostOps0_4, hostOps0_5]) W (Proc.devRef .tc main_v14) : S128x20480.Idx → EReal)
      = taken (W (Proc.devRef .tc main_v4))
          (sites (W (Proc.devRef .tc main_v7)) (W (Proc.devRef .tc main_v10)) (W (Proc.devRef .tc main_c_1)) (constantI S_ 32 0#32)) := by
  simp only [hostOps0_1, hostOps0_2, hostOps0_3, hostOps0_4, hostOps0_5, List.flatten_cons, List.flatten_nil, List.append_nil, List.cons_append, List.nil_append]
  after_results
  rfl

open Idealize.ShloMosaic.StableHlo in
/-- The last part, from any contents W: the four quadrants of W's main_v14. -/
theorem last_v15 (W : Valuation τ sig (Elt Ideal)) :
    (StableHlo.after hostOps0_6 W (Proc.devRef .tc main_v15) : S64x10240.Idx → EReal)
      = extractStridedSlice S64x10240 ![0, 0] (W (Proc.devRef .tc main_v14)) slices_S128x20480_S64x10240_0_0 := by
  simp only [hostOps0_6]
  after_results

open Idealize.ShloMosaic.StableHlo in
theorem last_v16 (W : Valuation τ sig (Elt Ideal)) :
    (StableHlo.after hostOps0_6 W (Proc.devRef .tc main_v16) : S64x10240.Idx → EReal)
      = extractStridedSlice S64x10240 ![64, 0] (W (Proc.devRef .tc main_v14)) slices_S128x20480_S64x10240_64_0 := by
  simp only [hostOps0_6]
  after_results

open Idealize.ShloMosaic.StableHlo in
theorem last_v17 (W : Valuation τ sig (Elt Ideal)) :
    (StableHlo.after hostOps0_6 W (Proc.devRef .tc main_v17) : S64x10240.Idx → EReal)
      = extractStridedSlice S64x10240 ![0, 10240] (W (Proc.devRef .tc main_v14)) slices_S128x20480_S64x10240_0_10240 := by
  simp only [hostOps0_6]
  after_results

open Idealize.ShloMosaic.StableHlo in
theorem last_v18 (W : Valuation τ sig (Elt Ideal)) :
    (StableHlo.after hostOps0_6 W (Proc.devRef .tc main_v18) : S64x10240.Idx → EReal)
      = extractStridedSlice S64x10240 ![64, 10240] (W (Proc.devRef .tc main_v14)) slices_S128x20480_S64x10240_64_10240 := by
  simp only [hostOps0_6]
  after_results

open Idealize.ShloMosaic.StableHlo in
/-- The first part leaves the padding word, zero, in main_c_1. -/
theorem first_c1 (c : Dev nD) :
    (StableHlo.after (hostOps0 (F := Ideal)) (fun b => m (c, b)) (Proc.devRef .tc main_c_1) : S_.Idx → BitVec 32)
      = constantI S_ 32 0#32 := by
  simp only [hostOps0]
  after_results

/-- The table of sampled pixels the host stretch leaves in main_v14, as a function of the launch contents. -/
def table (g o : S64x1x384x384.Idx → EReal) (x₁ y₁ x₂ y₂ : S10000.Idx → BitVec 32) : S128x20480.Idx → EReal :=
  taken (imgs g o) (sites (site x₁ y₁) (site x₂ y₂) (constantI S_ 32 0#32) (constantI S_ 32 0#32))

/-- What the region finds in main_v14. -/
theorem V0_v14 (c : Dev nD) :
    (StableHlo.after (List.flatten [hostOps0_1, hostOps0_2, hostOps0_3, hostOps0_4, hostOps0_5])
        (StableHlo.after (hostOps0 (F := Ideal)) (fun b => m (c, b))) (Proc.devRef .tc main_v14) : S128x20480.Idx → EReal)
      = table (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [mid_v14, first_v4, first_v7, first_v10, first_c1]
  rfl

/-- Window 0's array is the table's upper left quadrant, … -/
theorem V_v15 (c : Dev nD) :
    (V (F := Ideal) m c main_v15 : S64x10240.Idx → EReal)
      = extractStridedSlice S64x10240 ![0, 0]
          (table (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5)))
          slices_S128x20480_S64x10240_0_0 := by
  show V0 (F := Ideal) m c (Proc.devRef .tc main_v15) = _
  rw [V0_split, last_v15, V0_v14]

/-- … window 2's its lower left, … -/
theorem V_v16 (c : Dev nD) :
    (V (F := Ideal) m c main_v16 : S64x10240.Idx → EReal)
      = extractStridedSlice S64x10240 ![64, 0]
          (table (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5)))
          slices_S128x20480_S64x10240_64_0 := by
  show V0 (F := Ideal) m c (Proc.devRef .tc main_v16) = _
  rw [V0_split, last_v16, V0_v14]

/-- … window 1's its upper right, … -/
theorem V_v17 (c : Dev nD) :
    (V (F := Ideal) m c main_v17 : S64x10240.Idx → EReal)
      = extractStridedSlice S64x10240 ![0, 10240]
          (table (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5)))
          slices_S128x20480_S64x10240_0_10240 := by
  show V0 (F := Ideal) m c (Proc.devRef .tc main_v17) = _
  rw [V0_split, last_v17, V0_v14]

/-- … and window 3's its lower right. -/
theorem V_v18 (c : Dev nD) :
    (V (F := Ideal) m c main_v18 : S64x10240.Idx → EReal)
      = extractStridedSlice S64x10240 ![64, 10240]
          (table (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5)))
          slices_S128x20480_S64x10240_64_10240 := by
  show V0 (F := Ideal) m c (Proc.devRef .tc main_v18) = _
  rw [V0_split, last_v18, V0_v14]

/-! ## The sampled pixel -/

/-- THE READ. A column of the taken table whose position word is the flattened site (x[n], y[n]), x and y in
    range: at a row of the first image it is that image's pixel at the site, at the same row 64 further down the
    second image's. -/
theorem taken_pix (g o : S64x1x384x384.Idx → EReal) (x y : S10000.Idx → BitVec 32) (idx : S20480.Idx → BitVec 32)
    (hx : InRange x) (hy : InRange y) (b : Fin 64) (n : Fin 10000) (a : Fin 20480)
    (ha : idx (ix1 a) = site x y (ix1 n)) :
    taken (imgs g o) idx (ix2 (⟨b.val, by omega⟩ : Fin 128) a) = pix g x y b n
      ∧ taken (imgs g o) idx (ix2 (⟨64 + b.val, by omega⟩ : Fin 128) a) = pix o x y b n := by
  have h1 : (x (ix1 n)).toNat < 384 := hx n
  have h2 : (y (ix1 n)).toNat < 384 := hy n
  have hs := site_toNat x y hx hy n
  -- the position as a number, below 147456
  have hq : (idx (ix1 a)).toInt = (((⟨(x (ix1 n)).toNat * 384 + (y (ix1 n)).toNat, by omega⟩ : Fin 147456).val : ℕ) : ℤ) := by
    rw [ha, StableHlo.Predicate.toInt_eq_toNat_of_lt (by rw [hs]; omega), hs]
  unfold pix
  constructor
  · rw [taken_apply _ _ _ _ _ hq]
    exact imgs_apply_left g o b _ _ rfl
      (by show (x (ix1 n)).toNat % 384 * 384 + (y (ix1 n)).toNat % 384 = (x (ix1 n)).toNat * 384 + (y (ix1 n)).toNat
          rw [Nat.mod_eq_of_lt h1, Nat.mod_eq_of_lt h2])
  · rw [taken_apply _ _ _ _ _ hq]
    exact imgs_apply_right g o b _ _ rfl
      (by show (x (ix1 n)).toNat % 384 * 384 + (y (ix1 n)).toNat % 384 = (x (ix1 n)).toNat * 384 + (y (ix1 n)).toNat
          rw [Nat.mod_eq_of_lt h1, Nat.mod_eq_of_lt h2])

/-- Window 0's array (the ground truth at the first site). -/
theorem V_pix1 (c : Dev nD) (h2 : InRange (m ((c : Thread nD τ).loc main_arg2))) (h3 : InRange (m ((c : Thread nD τ).loc main_arg3)))
    (b : Fin 64) (n : Fin 10000) :
    (V (F := Ideal) m c main_v15 : S64x10240.Idx → EReal) (ix2 b ⟨n.val, by omega⟩)
      = pix (m ((c : Thread nD τ).loc main_arg0)) (m ((c : Thread nD τ).loc main_arg2)) (m ((c : Thread nD τ).loc main_arg3)) b n := by
  rw [V_v15, extractStridedSlice_apply ![0, 0] _ slices_S128x20480_S64x10240_0_0 _
    (ix2 (⟨b.val, by omega⟩ : Fin 128) (⟨n.val, by omega⟩ : Fin 20480))
    (fun a => match a with
      | ⟨0, _⟩ => by show b.val = 0 + b.val; omega
      | ⟨1, _⟩ => by show n.val = 0 + n.val; omega)]
  exact (taken_pix _ _ _ _ _ h2 h3 b n _ (sites_apply_left _ _ _ _ n)).1

/-- Window 1's array (the ground truth at the second site). -/
theorem V_pix2 (c : Dev nD) (h4 : InRange (m ((c : Thread nD τ).loc main_arg4))) (h5 : InRange (m ((c : Thread nD τ).loc main_arg5)))
    (b : Fin 64) (n : Fin 10000) :
    (V (F := Ideal) m c main_v17 : S64x10240.Idx → EReal) (ix2 b ⟨n.val, by omega⟩)
      = pix (m ((c : Thread nD τ).loc main_arg0)) (m ((c : Thread nD τ).loc main_arg4)) (m ((c : Thread nD τ).loc main_arg5)) b n := by
  rw [V_v17, extractStridedSlice_apply ![0, 10240] _ slices_S128x20480_S64x10240_0_10240 _
    (ix2 (⟨b.val, by omega⟩ : Fin 128) (⟨10240 + n.val, by omega⟩ : Fin 20480))
    (fun a => match a with
      | ⟨0, _⟩ => by show b.val = 0 + b.val; omega
      | ⟨1, _⟩ => by show 10240 + n.val = 10240 + n.val; rfl)]
  exact (taken_pix _ _ _ _ _ h4 h5 b n _ (sites_apply_right _ _ _ _ n)).1

/-- Window 2's array (the prediction at the first site). -/
theorem V_o1 (c : Dev nD) (h2 : InRange (m ((c : Thread nD τ).loc main_arg2))) (h3 : InRange (m ((c : Thread nD τ).loc main_arg3)))
    (b : Fin 64) (n : Fin 10000) :
    (V (F := Ideal) m c main_v16 : S64x10240.Idx → EReal) (ix2 b ⟨n.val, by omega⟩)
      = pix (m ((c : Thread nD τ).loc main_arg1)) (m ((c : Thread nD τ).loc main_arg2)) (m ((c : Thread nD τ).loc main_arg3)) b n := by
  rw [V_v16, extractStridedSlice_apply ![64, 0] _ slices_S128x20480_S64x10240_64_0 _
    (ix2 (⟨64 + b.val, by omega⟩ : Fin 128) (⟨n.val, by omega⟩ : Fin 20480))
    (fun a => match a with
      | ⟨0, _⟩ => by show 64 + b.val = 64 + b.val; rfl
      | ⟨1, _⟩ => by show n.val = 0 + n.val; omega)]
  exact (taken_pix _ _ _ _ _ h2 h3 b n _ (sites_apply_left _ _ _ _ n)).2

/-- Window 3's array (the prediction at the second site). -/
theorem V_o2 (c : Dev nD) (h4 : InRange (m ((c : Thread nD τ).loc main_arg4))) (h5 : InRange (m ((c : Thread nD τ).loc main_arg5)))
    (b : Fin 64) (n : Fin 10000) :
    (V (F := Ideal) m c main_v18 : S64x10240.Idx → EReal) (ix2 b ⟨n.val, by omega⟩)
      = pix (m ((c : Thread nD τ).loc main_arg1)) (m ((c : Thread nD τ).loc main_arg4)) (m ((c : Thread nD τ).loc main_arg5)) b n := by
  rw [V_v18, extractStridedSlice_apply ![64, 10240] _ slices_S128x20480_S64x10240_64_10240 _
    (ix2 (⟨64 + b.val, by omega⟩ : Fin 128) (⟨10240 + n.val, by omega⟩ : Fin 20480))
    (fun a => match a with
      | ⟨0, _⟩ => by show 64 + b.val = 64 + b.val; rfl
      | ⟨1, _⟩ => by show 10240 + n.val = 10240 + n.val; rfl)]
  exact (taken_pix _ _ _ _ _ h4 h5 b n _ (sites_apply_right _ _ _ _ n)).2

end Cert.KernelIdeal.KernelPix

end
-- ==== Proof.Counts.lean ====
/-
  Counting on the extended reals. A column's ordered-pair bits, widened and summed as floats, are the number of
  ordered pairs; that number compared with 0, capped below by 1 and taken from 64 reads as the natural-number
  expressions of the specification; and the two tiles' masked partial sums regroup into the sum over the 10000
  sampled pairs.
-/
import proofs.«416620_j80083960201609_3_alg».proof.Proof.Spec
import Mathlib.Algebra.BigOperators.Fin
import Mathlib.Algebra.BigOperators.Intervals

noncomputable section

namespace Cert.RankLoss

open Idealize.ShloMosaic

/-- The word 1.0 is the real 1, and the word 64.0 the real 64. -/
theorem pos1_eq : pos1 = ((1 : ℝ) : EReal) := by
  simp [Ideal.ofBits, Ideal.ieee, -EReal.coe_mul]; norm_num
theorem c64_eq : c64 = ((64 : ℝ) : EReal) := by
  simp [Ideal.ofBits, Ideal.ieee, -EReal.coe_mul]; norm_num

/-- A finite sum of reals, taken on the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A bit widened to a word and read signed is 1 or 0. -/
theorem bit_toInt (d : Bool) : (((BitVec.ofBool d).setWidth 32).toInt : ℝ) = if d then 1 else 0 := by
  cases d <;> simp <;> decide

/-- The widened bits of a predicate over the batch, summed as floats, count the batch elements that satisfy it. -/
theorem sum_bits (p : Fin 64 → Prop) [DecidablePred p] :
    (∑ b : Fin 64, ((((BitVec.ofBool (decide (p b))).setWidth 32).toInt : ℝ) : EReal))
      = (((Finset.univ.filter p).card : ℝ) : EReal) := by
  rw [coe_sum]
  congr 1
  simp only [bit_toInt, decide_eq_true_eq]
  rw [Finset.sum_boole]

/-- A count is positive as an extended real exactly when it is positive. -/
theorem cmp_gt_count (k : ℕ) : Ideal.cmp .ogt (((k : ℝ)) : EReal) c0 = BitVec.ofBool (decide (0 < k)) := by
  show BitVec.ofBool (decide (c0 < ((k : ℝ) : EReal))) = _
  rw [c0_eq]
  congr 1
  rw [decide_eq_decide]
  rw [show (0 : EReal) = ((0 : ℝ) : EReal) from rfl, EReal.coe_lt_coe_iff]
  exact Nat.cast_pos

/-- A count capped below by the word 1.0. -/
theorem max_count (k : ℕ) : max (((k : ℝ)) : EReal) pos1 = (((max k 1 : ℕ) : ℝ) : EReal) := by
  rw [pos1_eq, ← EReal.coe_strictMono.monotone.map_max]
  congr 1
  rw [Nat.cast_max, Nat.cast_one]

/-- A count taken from the word 64.0. -/
theorem sub_count (k : ℕ) (hk : k ≤ 64) : c64 - (((k : ℝ)) : EReal) = ((((64 - k : ℕ)) : ℝ) : EReal) := by
  rw [c64_eq, ← EReal.coe_sub]
  congr 1
  rw [Nat.cast_sub hk]
  norm_num

/-- The two tiles' masked partial sums are the sum over the 10000 sampled pairs: tile t holds pairs 5120 t + j,
    j < 5120, and contributes those below 10000. -/
theorem tile_sum (f : ℕ → EReal) :
    (∑ j : Fin 5120, if j.val + 5120 * 0 < 10000 then f (j.val + 5120 * 0) else c0)
      + (∑ j : Fin 5120, if j.val + 5120 * 1 < 10000 then f (j.val + 5120 * 1) else c0)
      = ∑ n : Fin 10000, f n.val := by
  rw [Fin.sum_univ_eq_sum_range (fun j => if j + 5120 * 0 < 10000 then f (j + 5120 * 0) else c0) 5120,
    Fin.sum_univ_eq_sum_range (fun j => if j + 5120 * 1 < 10000 then f (j + 5120 * 1) else c0) 5120,
    Fin.sum_univ_eq_sum_range f 10000]
  have h1 : (∑ j ∈ Finset.range 5120, if j + 5120 * 0 < 10000 then f (j + 5120 * 0) else c0) = ∑ j ∈ Finset.range 5120, f j :=
    Finset.sum_congr rfl fun j hj => by
      have := Finset.mem_range.mp hj
      rw [if_pos (by omega)]; rfl
  have h2 : (∑ j ∈ Finset.range 5120, if j + 5120 * 1 < 10000 then f (j + 5120 * 1) else c0)
      = ∑ j ∈ Finset.range 4880, f (5120 + j) := by
    rw [show (5120 : ℕ) = 4880 + 240 from rfl, Finset.sum_range_add]
    have hz : (∑ x ∈ Finset.range 240, if 4880 + x + (4880 + 240) * 1 < 10000 then f (4880 + x + (4880 + 240) * 1) else c0) = 0 :=
      Finset.sum_eq_zero fun x _ => by rw [if_neg (by omega)]; exact c0_eq
    rw [hz, add_zero]
    exact Finset.sum_congr rfl fun j hj => by
      have := Finset.mem_range.mp hj
      rw [if_pos (by omega)]
      congr 1; omega
  rw [h1, h2, show (10000 : ℕ) = 5120 + 4880 from rfl, Finset.sum_range_add]

end Cert.RankLoss

end
-- ==== Proof.KernelBody.lean ====
/-
  What the kernel's body computes, at the extended reals, from its four [64, 5120] input blocks (the ground truth at
  the first and second site, the prediction at the first and second site, for 5120 consecutive sampled pairs):
  entry by entry the ranking label, the ordered-pair test, the pair's difference and the ordered pair's
  contribution are the specification's; per column the three row sums are the specification's count and two sums.
-/
import proofs.«416620_j80083960201609_3_alg».proof.Proof.FrameKernelIdeal
import proofs.«416620_j80083960201609_3_alg».proof.Proof.Spec
import proofs.«416620_j80083960201609_3_alg».proof.Proof.Counts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.KernelIdeal.GenP Cert.RankLoss
open Idealize.ShloMosaic Idealize.ShloMosaic.ValueIdx

/-- 0 - x is -x on the extended reals. -/
theorem c0_sub (x : EReal) : c0 - x = -x := by
  rw [c0_eq, sub_eq_add_neg, zero_add]

/-- The label, entry by entry. -/
theorem pay2_apply (x0 x1 : Vec Ideal S64x5120 .f32) (i : S64x5120.Idx) :
    k0_pay2 (F := Ideal) x0 x1 i = label (x0 i) (x1 i) := by
  unfold k0_pay2
  simp only [shapeCast_self]
  rfl

/-- The pair's difference of predictions, entry by entry. -/
theorem pay3_apply (x2 x3 : Vec Ideal S64x5120 .f32) (i : S64x5120.Idx) :
    k0_pay3 (F := Ideal) x2 x3 i = x2 i - x3 i := by
  unfold k0_pay3
  simp only [shapeCast_self]
  rfl

/-- The ordered-pair test, entry by entry. -/
theorem pay4_apply (x0 x1 : Vec Ideal S64x5120 .f32) (i : S64x5120.Idx) :
    k0_pay4 (F := Ideal) x0 x1 i = BitVec.ofBool (decide (label (x0 i) (x1 i) ≠ c0)) := by
  unfold k0_pay4
  show Ideal.cmp .one (k0_pay2 (F := Ideal) x0 x1 i) c0 = _
  rw [pay2_apply]
  rfl

/-- The softplus argument, entry by entry: minus the label times the difference. -/
theorem pay5_apply (x0 x1 x2 x3 : Vec Ideal S64x5120 .f32) (i : S64x5120.Idx) :
    k0_pay5 (F := Ideal) x0 x1 x2 x3 i = -(label (x0 i) (x1 i)) * (x2 i - x3 i) := by
  unfold k0_pay5
  show (c0 - k0_pay2 (F := Ideal) x0 x1 i) * k0_pay3 (F := Ideal) x2 x3 i = _
  rw [pay2_apply, pay3_apply, c0_sub]

/-- The ordered pair's contribution, entry by entry, assembled as the body does (the stable softplus). -/
theorem term_apply (x0 x1 x2 x3 : Vec Ideal S64x5120 .f32) (i : S64x5120.Idx) :
    Scalar.select (k0_pay8 (F := Ideal) x0 x1 x2 x3 i) (k0_pay9 (F := Ideal) x0 x1 x2 x3 i)
        (k0_pay6 (F := Ideal) x0 x1 x2 x3 i + Ideal.log1p (k0_pay10 (F := Ideal) x0 x1 x2 x3 i))
      = term (x0 i) (x1 i) (x2 i) (x3 i) := by
  have h7 : k0_pay7 (F := Ideal) x0 x1 x2 x3 i = -(label (x0 i) (x1 i)) * (x2 i - x3 i) - c0 := by
    unfold k0_pay7
    show k0_pay5 (F := Ideal) x0 x1 x2 x3 i - c0 = _
    rw [pay5_apply]
  have h8 : k0_pay8 (F := Ideal) x0 x1 x2 x3 i
      = Ideal.cmp .one (-(label (x0 i) (x1 i)) * (x2 i - x3 i) - c0) (-(label (x0 i) (x1 i)) * (x2 i - x3 i) - c0) := by
    unfold k0_pay8
    show Ideal.cmp .one (k0_pay7 (F := Ideal) x0 x1 x2 x3 i) (k0_pay7 (F := Ideal) x0 x1 x2 x3 i) = _
    rw [h7]
  have h9 : k0_pay9 (F := Ideal) x0 x1 x2 x3 i = -(label (x0 i) (x1 i)) * (x2 i - x3 i) + c0 := by
    unfold k0_pay9
    show k0_pay5 (F := Ideal) x0 x1 x2 x3 i + c0 = _
    rw [pay5_apply]
  have h6 : k0_pay6 (F := Ideal) x0 x1 x2 x3 i = max (-(label (x0 i) (x1 i)) * (x2 i - x3 i)) c0 := by
    unfold k0_pay6
    show max (k0_pay5 (F := Ideal) x0 x1 x2 x3 i) c0 = _
    rw [pay5_apply]
  have h10 : k0_pay10 (F := Ideal) x0 x1 x2 x3 i
      = Ideal.exp (-(max (-(label (x0 i) (x1 i)) * (x2 i - x3 i) - c0) (-(-(label (x0 i) (x1 i)) * (x2 i - x3 i) - c0)))) := by
    unfold k0_pay10
    show Ideal.exp (c0 - max (k0_pay7 (F := Ideal) x0 x1 x2 x3 i) (-(k0_pay7 (F := Ideal) x0 x1 x2 x3 i))) = _
    rw [h7, c0_sub]
  rw [h8, h9, h6, h10]
  rfl

/-- A sum over the 64 rows, laid out as a [1, 5120] row, read at column k: the sum of column k. -/
theorem rowsum_apply (src : FVec Ideal S64x5120 .f32) (k : Fin 5120) :
    shapeCast S1x5120 (multiReduction .add [0] S5120 src 0x00000000#32 reduces_S64x5120_S5120 (.inl rfl) rfl)
        shapeCasts_S5120_S1x5120 (ix2 (0 : Fin 1) k)
      = ∑ b : Fin 64, src (ix2 b k) := by
  rw [shapeCast_a_1a_apply _ shapeCasts_S5120_S1x5120 (0 : Fin 1) k]
  refine (Ideal.multiReduction_add_single src 0x00000000#32 reduces_S64x5120_S5120 (.inl rfl) rfl (ix1 k)).trans ?_
  show ∑ b : Fin 64, src (reduces_S64x5120_S5120.lift (ix1 k) b) = _
  refine Finset.sum_congr rfl fun b _ => congrArg src ?_
  funext a; apply Fin.ext
  match a with
  | ⟨0, _⟩ => rfl
  | ⟨1, _⟩ => rfl

/-- The sum along a [1, 5120] row, read at its one index. -/
theorem lanesum_apply (src : FVec Ideal S1x5120 .f32) (y : S1x1.Idx) :
    shapeCast S1x1 (multiReduction .add [1] S1 src 0x00000000#32 reduces_S1x5120_S1 (.inl rfl) rfl) shapeCasts_S1_S1x1 y
      = ∑ k : Fin 5120, src (ix2 (0 : Fin 1) k) := by
  rw [shapeCast_addUnit_apply (![1]) _ shapeCasts_S1_S1x1 y]
  refine (Ideal.multiReduction_add_single src 0x00000000#32 reduces_S1x5120_S1 (.inl rfl) rfl (fun a => y a.succ)).trans ?_
  show ∑ k : Fin 5120, src (reduces_S1x5120_S1.lift (fun a => y a.succ) k) = _
  refine Finset.sum_congr rfl fun k _ => congrArg src ?_
  funext a; apply Fin.ext
  match a with
  | ⟨0, h0⟩ =>
    have h1 : (reduces_S1x5120_S1.lift (fun a => y a.succ) k ⟨0, h0⟩).val < 1 :=
      (reduces_S1x5120_S1.lift (fun a => y a.succ) k ⟨0, h0⟩).isLt
    show (reduces_S1x5120_S1.lift (fun a => y a.succ) k ⟨0, h0⟩).val = 0
    omega
  | ⟨1, _⟩ => rfl

/-- Column k of a [64, 5120] block. -/
def col (x : Vec Ideal S64x5120 .f32) (k : Fin 5120) : Fin 64 → EReal := fun b => x (ix2 b k)

/-- A select on a decided proposition is the if-then-else. -/
theorem select_ofBool {α : Type} (p : Prop) [Decidable p] (a b : α) : Scalar.select (BitVec.ofBool (decide p)) a b = if p then a else b := by
  unfold Scalar.select
  by_cases h : p <;> simp [h]

/-- The float count of a column's ordered pairs is the specification's count. -/
theorem cnt_apply (x0 x1 : Vec Ideal S64x5120 .f32) (k : Fin 5120) :
    shapeCast S1x5120 (multiReduction .add [0] S5120 (sitofp (F := Ideal) .f32 (extui 32 (k0_pay4 (F := Ideal) x0 x1) natLt_1_32))
        0x00000000#32 reduces_S64x5120_S5120 (.inl rfl) rfl) shapeCasts_S5120_S1x5120 (ix2 (0 : Fin 1) k)
      = (((cnt (col x0 k) (col x1 k) : ℕ) : ℝ) : EReal) := by
  rw [rowsum_apply]
  have h : ∀ b : Fin 64, (sitofp (F := Ideal) .f32 (extui 32 (k0_pay4 (F := Ideal) x0 x1) natLt_1_32)) (ix2 b k)
      = ((((BitVec.ofBool (decide (label (col x0 k b) (col x1 k b) ≠ c0))).setWidth 32).toInt : ℝ) : EReal) := fun b => by
    show ((((k0_pay4 (F := Ideal) x0 x1 (ix2 b k)).setWidth 32).toInt : ℝ) : EReal) = _
    rw [pay4_apply]
    rfl
  rw [Finset.sum_congr rfl fun b _ => h b]
  exact sum_bits fun b => label (col x0 k b) (col x1 k b) ≠ c0

/-- The column's sum of ordered pairs' contributions is the specification's. -/
theorem sumTerm_apply (x0 x1 x2 x3 : Vec Ideal S64x5120 .f32) (k : Fin 5120) :
    shapeCast S1x5120 (multiReduction .add [0] S5120
        (select (k0_pay4 (F := Ideal) x0 x1)
          (select (k0_pay8 (F := Ideal) x0 x1 x2 x3) (k0_pay9 (F := Ideal) x0 x1 x2 x3)
            (addf (k0_pay6 (F := Ideal) x0 x1 x2 x3) (log1p (k0_pay10 (F := Ideal) x0 x1 x2 x3))))
          (broadcast S64x5120 (Scalar.ofBits (F := Ideal) .f32 0x00000000#32)))
        0x00000000#32 reduces_S64x5120_S5120 (.inl rfl) rfl) shapeCasts_S5120_S1x5120 (ix2 (0 : Fin 1) k)
      = sumTerm (col x0 k) (col x1 k) (col x2 k) (col x3 k) := by
  rw [rowsum_apply]
  unfold sumTerm
  refine Finset.sum_congr rfl fun b _ => ?_
  show Scalar.select (k0_pay4 (F := Ideal) x0 x1 (ix2 b k))
      (Scalar.select (k0_pay8 (F := Ideal) x0 x1 x2 x3 (ix2 b k)) (k0_pay9 (F := Ideal) x0 x1 x2 x3 (ix2 b k))
        (k0_pay6 (F := Ideal) x0 x1 x2 x3 (ix2 b k) + Ideal.log1p (k0_pay10 (F := Ideal) x0 x1 x2 x3 (ix2 b k)))) c0 = _
  rw [pay4_apply, term_apply, select_ofBool]
  rfl

/-- The column's sum of unordered pairs' squared differences is the specification's. -/
theorem sumSq_apply (x0 x1 x2 x3 : Vec Ideal S64x5120 .f32) (k : Fin 5120) :
    shapeCast S1x5120 (multiReduction .add [0] S5120
        (select (k0_pay4 (F := Ideal) x0 x1) (broadcast S64x5120 (Scalar.ofBits (F := Ideal) .f32 0x00000000#32))
          (mulf (k0_pay3 (F := Ideal) x2 x3) (k0_pay3 (F := Ideal) x2 x3)))
        0x00000000#32 reduces_S64x5120_S5120 (.inl rfl) rfl) shapeCasts_S5120_S1x5120 (ix2 (0 : Fin 1) k)
      = sumSq (col x0 k) (col x1 k) (col x2 k) (col x3 k) := by
  rw [rowsum_apply]
  unfold sumSq
  refine Finset.sum_congr rfl fun b _ => ?_
  show Scalar.select (k0_pay4 (F := Ideal) x0 x1 (ix2 b k)) c0
      (k0_pay3 (F := Ideal) x2 x3 (ix2 b k) * k0_pay3 (F := Ideal) x2 x3 (ix2 b k)) = _
  rw [pay4_apply, pay3_apply, select_ofBool]
  rfl

/-- One column's two averages, assembled as the body does over the float count, are the specification's column loss. -/
theorem colLoss_of_count (p1 p2 o1 o2 : Fin 64 → EReal) :
    Scalar.select (Ideal.cmp .ogt (((cnt p1 p2 : ℕ) : ℝ) : EReal) c0)
        (Ideal.div (sumTerm p1 p2 o1 o2) (max (((cnt p1 p2 : ℕ) : ℝ) : EReal) pos1)) c0
      + Scalar.select (Ideal.cmp .ogt (c64 - (((cnt p1 p2 : ℕ) : ℝ) : EReal)) c0)
        (Ideal.div (sumSq p1 p2 o1 o2) (max (c64 - (((cnt p1 p2 : ℕ) : ℝ) : EReal)) pos1)) c0
      = colLoss p1 p2 o1 o2 := by
  rw [sub_count _ (cnt_le p1 p2), cmp_gt_count, cmp_gt_count, max_count, max_count, select_ofBool, select_ofBool]
  rfl

/-- The column mask: position k of tile a's columns is a sampled pair (below 10000). -/
theorem mask_apply (a : BitVec 32) (k : Fin 5120) :
    cmpi .slt (addi (iota .tc S1x5120 32 [1] iota_S1x5120_d1_w32) (broadcast S1x5120 (Scalar.muli a 5120#32)))
        (broadcast S1x5120 10000#32) (ix2 (0 : Fin 1) k)
      = IntOp.cmpi .slt (BitVec.ofNat 32 k.val + a * 5120#32) 10000#32 := by
  show IntOp.cmpi .slt (IntOp.addi (iota .tc S1x5120 32 [1] iota_S1x5120_d1_w32 (ix2 (0 : Fin 1) k)) (Scalar.muli a 5120#32)) 10000#32 = _
  rw [iota_single_apply]
  rfl

/-- THE BODY'S SCALAR: the sum, over the tile's 5120 columns that are sampled pairs, of the column loss. -/
theorem pay11_apply (a : BitVec 32) (x0 x1 x2 x3 : Vec Ideal S64x5120 .f32) (y : S1x1.Idx) :
    k0_pay11 (F := Ideal) a (k0_pay3 (F := Ideal) x2 x3) (k0_pay4 (F := Ideal) x0 x1) (k0_pay6 (F := Ideal) x0 x1 x2 x3)
        (k0_pay8 (F := Ideal) x0 x1 x2 x3) (k0_pay9 (F := Ideal) x0 x1 x2 x3) (k0_pay10 (F := Ideal) x0 x1 x2 x3) y
      = ∑ k : Fin 5120, Scalar.select (IntOp.cmpi .slt (BitVec.ofNat 32 k.val + a * 5120#32) 10000#32)
          (colLoss (col x0 k) (col x1 k) (col x2 k) (col x3 k)) c0 := by
  unfold k0_pay11
  refine (lanesum_apply _ y).trans ?_
  refine Finset.sum_congr rfl fun k _ => ?_
  refine congrArg₂ (fun (c : BitVec 1) (v : EReal) => Scalar.select c v c0) (mask_apply a k) ?_
  refine Eq.trans ?_ (colLoss_of_count (col x0 k) (col x1 k) (col x2 k) (col x3 k))
  rw [← cnt_apply x0 x1 k, ← sumTerm_apply x0 x1 x2 x3 k, ← sumSq_apply x0 x1 x2 x3 k]
  rfl

end Cert.KernelIdeal.Body

end
-- ==== Proof.KernelValue.lean ====
/-
  The kernel program's result at the extended reals. Grid point t (t = 0, 1) reads columns 5120 t … 5120 t + 5119 of
  the four gathered arrays and writes, into lane 0 of block t of a [1, 256] array (zeros in the other 127 lanes), the
  sum of the column losses of those of its columns that are sampled pairs (column index below 10000); the host then
  sums the 256 lanes and divides by 10000.
-/
import proofs.«416620_j80083960201609_3_alg».proof.Proof.FrameKernelIdeal
import proofs.«416620_j80083960201609_3_alg».proof.Proof.KernelBody
import proofs.«416620_j80083960201609_3_alg».proof.Proof.Spec
import proofs.«416620_j80083960201609_3_alg».proof.Proof.Counts
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.GenP Cert.KernelIdeal.Body Cert.RankLoss
open Idealize.ShloMosaic.ValueIdx

theorem hz : (![0, 0] : Fin 2 → Nat) = fun _ => 0 := funext fun a => by fin_cases a <;> rfl

/-- A tile's sum: over its 5120 columns, the column loss of those that are sampled pairs. -/
def tileSum (i : grid0.Coords) (x0 x1 x2 x3 : Vec Ideal S64x5120 .f32) : EReal :=
  ∑ k : Fin 5120, Scalar.select (IntOp.cmpi .slt (BitVec.ofNat 32 k.val + BitVec.ofNat 32 (i 0).val * 5120#32) 10000#32)
    (colLoss (col x0 k) (col x1 k) (col x2 k) (col x3 k)) c0

/-- What the body leaves in its [1, 128] output block: the tile's sum in lane 0, zero in the other lanes. -/
theorem out0_4_apply (i : grid0.Coords) (x0 x1 x2 x3 : Vec Ideal S64x5120 .f32) (l : Fin 128) :
    out0_4 (F := Ideal) i x0 x1 x2 x3 (ix2 (0 : Fin 1) l) = if l.val = 0 then tileSum i x0 x1 x2 x3 else c0 := by
  unfold out0_4
  rw [View.canon_unit_zero hz]
  simp only [View.ld_unit_zero (S := S64x5120) hz]
  unfold k0_pay1
  show Scalar.select (IntOp.cmpi .eq (iota .tc S1x128 32 [1] iota_S1x128_d1_w32 (ix2 (0 : Fin 1) l)) 0#32)
      (broadcastTo S1x128 (shapeCast S1x1 (k0_pay11 (F := Ideal) (BitVec.ofNat 32 (i 0).val) (k0_pay3 (F := Ideal) x2 x3)
        (k0_pay4 (F := Ideal) x0 x1) (k0_pay6 (F := Ideal) x0 x1 x2 x3) (k0_pay8 (F := Ideal) x0 x1 x2 x3)
        (k0_pay9 (F := Ideal) x0 x1 x2 x3) (k0_pay10 (F := Ideal) x0 x1 x2 x3)) shapeCasts_S1x1_S1x1) broadcasts_S1x1_S1x128
        (ix2 (0 : Fin 1) l)) c0 = _
  rw [iota_single_apply, shapeCast_self,
    broadcastTo_apply _ broadcasts_S1x1_S1x128 (ix2 (0 : Fin 1) l) (ix2 (0 : Fin 1) (0 : Fin 1)) (fun a => by
      match a with
      | ⟨0, _⟩ => rfl
      | ⟨1, _⟩ => rfl),
    pay11_apply]
  have hl : IntOp.cmpi .eq (BitVec.ofNat 32 ((ix2 (0 : Fin 1) l) (1 : Fin 2)).val) 0#32 = BitVec.ofBool (decide (l.val = 0)) := by
    show BitVec.ofBool (BitVec.ofNat 32 l.val == 0#32) = _
    congr 1
    have h128 := l.isLt
    rw [Bool.eq_iff_iff, beq_iff_eq, decide_eq_true_eq]
    constructor
    · intro h
      have := congrArg BitVec.toNat h
      simp only [BitVec.toNat_ofNat, BitVec.toNat_zero] at this
      omega
    · intro h; rw [h]
  rw [hl, select_ofBool]
  rfl

variable (m : (ℓ : Loc nD τ sig) → Buf (Elt Ideal) ℓ) (ρ : Dev nD → PrngReg)

/-- Tile t's sum, of the four input blocks at point t. -/
def tileAt (c : Dev nD) (t : Fin cfg0.N) : EReal :=
  tileSum (grid0.coords t) (iblk m c 0 t) (iblk m c 1 t) (iblk m c 2 t) (iblk m c 3 t)

theorem N_lt (q : Fin 256) : q.val / 128 < cfg0.N := by
  show q.val / 128 < grid0.N
  rw [N_0]; have := q.isLt; omega

/-- The [1, 256] array the region leaves: lane 0 of block t holds tile t's sum, the other lanes zero. -/
def outArr (c : Dev nD) : S1x256.Idx → EReal := fun i =>
  if (i 1).val % 128 = 0 then tileAt m c ⟨(i 1).val / 128, N_lt (i 1)⟩ else c0

/-- The output window's printed index map, decided over the grid: block (0, t) at point t. -/
theorem idx_facts4 : ∀ t : Fin cfg0.N, win0_4.index t (0 : Fin 2) = 0 ∧ win0_4.index t (1 : Fin 2) = t.val :=
  (by decide +kernel : ∀ t : Fin grid0.N, _)

/-- The output block entry by entry, at any index of the block. -/
theorem out_block (i : grid0.Coords) (x0 x1 x2 x3 : Vec Ideal S64x5120 .f32) (j : S1x128.Idx) :
    out0_4 (F := Ideal) i x0 x1 x2 x3 j = if (j 1).val = 0 then tileSum i x0 x1 x2 x3 else c0 := by
  have h0 : (j 0) = (0 : Fin 1) := Fin.ext (by have h : (j 0).val < 1 := (j 0).isLt; show (j 0).val = 0; omega)
  have hj : j = ix2 (0 : Fin 1) (j 1) := (eq_ix2 j).trans (congrArg (fun z : Fin 1 => ix2 z (j 1)) h0)
  exact (congrArg (out0_4 (F := Ideal) i x0 x1 x2 x3) hj).trans (out0_4_apply i x0 x1 x2 x3 (j 1))

/-- The array at lane l of block t. -/
theorem outArr_at (c : Dev nD) (t : Fin cfg0.N) (i : S1x256.Idx) (l : Nat) (hl : l < 128) (hi : (i 1).val = t.val * 128 + l) :
    outArr m c i = if l = 0 then tileAt m c t else c0 := by
  unfold outArr
  have h1 : (i 1).val % 128 = l := by omega
  have h2 : (i 1).val / 128 = t.val := by omega
  rw [h1]
  have h3 : (⟨(i 1).val / 128, N_lt (i 1)⟩ : Fin cfg0.N) = t := Fin.ext h2
  rw [h3]

/-- WHAT POINT t WRITES BACK is block t of the array. -/
theorem flushed_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  obtain ⟨e0, e1⟩ := idx_facts4 t
  funext j
  show out0_4 (F := Ideal) (grid0.coords t) (iblk m c 0 t) (iblk m c 1 t) (iblk m c 2 t) (iblk m c 3 t) j
      = outArr m c (((cfg0.win 4).blk t).view.emb j)
  have hj1 : (j 1).val < 128 := (j 1).isLt
  refine (out_block _ _ _ _ _ j).trans ?_
  refine (outArr_at m c t _ (j 1).val hj1 ?_).symm
  show win0_4.index t (1 : Fin 2) * 128 + 1 * (j 1).val = t.val * 128 + (j 1).val
  rw [e1]; omega

/-- An index of the array is in point t's block iff each coordinate is in the block's range on its axis. -/
theorem mem_blk4 (t : Fin cfg0.N) (i : S1x256.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v19).slice (win0_4.rect t)).set ↔ _
  rw [View.set_slice_whole, Rect.mem_set_unit]
  exact Iff.rfl

/-- Every lane of the array is in the block of the point that is its lane index divided by 128. -/
theorem cover4 (i : S1x256.Idx) : ∃ t : Fin cfg0.N, (cfg0.win 4).flush t = true ∧ i ∈ ((cfg0.win 4).blk t).view.set := by
  have hi0 : (i 0).val < 1 := (i 0).isLt
  have hi1 : (i 1).val < 256 := (i 1).isLt
  refine ⟨⟨(i 1).val / 128, N_lt (i 1)⟩, flush0_4 _, ?_⟩
  rw [mem_blk4]
  obtain ⟨e0, e1⟩ := idx_facts4 ⟨(i 1).val / 128, N_lt (i 1)⟩
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 128 ≤ (i 1).val ∧ (i 1).val < win0_4.index _ (1 : Fin 2) * 128 + 128
    rw [e1]
    show (i 1).val / 128 * 128 ≤ (i 1).val ∧ (i 1).val < (i 1).val / 128 * 128 + 128
    omega

/-- THE ARRAY after the region. -/
theorem final4 (c : Dev nD) : (dats m 0 c).arrAt 4 cfg0.N = outArr m c :=
  (dats m 0 c).arrAt_eq_of_cover 4 (outArr m c) (fun t _ => flushed_eq m c t) cover4

/-! ## The host's tail: the lanes summed, the sum divided by 10000 -/

/-- @main's result after the region's tail, as the tail's two operations of the array the region left. -/
theorem tail_eq (c : Dev nD) :
    (Pipeline.afterTail₀ cfgs (dats m) 0 (V0 m) [hostOps1] c main_v21 : S_.Idx → EReal)
      = Host.divf (F := Ideal) (Host.reduceAdd (F := Ideal) (outArr m c) (constant (F := Ideal) S_ .f32 0x00000000#32)
          reducesTo_S1x256_S_d0_1 h_S_) (constant (F := Ideal) S_ .f32 0x461C4000#32) := by
  unfold Pipeline.afterTail₀
  show StableHlo.after hostOps1 _ (Proc.devRef .tc main_v21) = _
  after_results
  rw [(Pipeline.withArrays_arr spec0 launch0.win.arr_inj c _ _ 4).trans (final4 m c)]

/-- Read at its one index: the sum of the 256 lanes, divided by 10000. -/
theorem tail_val (c : Dev nD) (i : S_.Idx) :
    Host.divf (F := Ideal) (Host.reduceAdd (F := Ideal) (outArr m c) (constant (F := Ideal) S_ .f32 0x00000000#32)
        reducesTo_S1x256_S_d0_1 h_S_) (constant (F := Ideal) S_ .f32 0x461C4000#32) i
      = Ideal.div (c0 + ∑ j : S1x256.Idx, outArr m c j) c10000 := by
  show Ideal.div (Host.reduceAdd (F := Ideal) (outArr m c) (constant (F := Ideal) S_ .f32 0x00000000#32)
      reducesTo_S1x256_S_d0_1 h_S_ i) c10000 = _
  refine congrArg (fun s => Ideal.div s c10000) ?_
  simp only [Host.reduceAdd, Ideal.hostReduceAdd_def]
  exact Ideal.hostReduceAdd_total reducesTo_S1x256_S_d0_1 (fun b => b.elim0) (outArr m c) _ i

/-- Of 256 lanes that are zero except lane 0 of each block of 128, the sum is the two blocks' lane 0. -/
theorem lanes_sum (g : ℕ → EReal) :
    (∑ q : Fin 256, if q.val % 128 = 0 then g (q.val / 128) else c0) = g 0 + g 1 := by
  rw [Fin.sum_univ_eq_sum_range (fun q => if q % 128 = 0 then g (q / 128) else c0) 256,
    show (256 : ℕ) = 128 + 128 from rfl, Finset.sum_range_add]
  have h0 : (∑ x ∈ Finset.range 128, if x % 128 = 0 then g (x / 128) else c0) = g 0 := by
    rw [Finset.sum_eq_single 0]
    · rfl
    · intro x hx hx0
      have := Finset.mem_range.mp hx
      rw [if_neg (by omega)]; exact c0_eq
    · intro h; exact absurd (Finset.mem_range.mpr (by norm_num)) h
  have h1 : (∑ x ∈ Finset.range 128, if (128 + x) % 128 = 0 then g ((128 + x) / 128) else c0) = g 1 := by
    rw [Finset.sum_eq_single 0]
    · rfl
    · intro x hx hx0
      have := Finset.mem_range.mp hx
      rw [if_neg (by omega)]; exact c0_eq
    · intro h; exact absurd (Finset.mem_range.mpr (by norm_num)) h
  rw [h0, h1]

/-! ## The tiles' sums over the columns of the four arrays the region finds -/

/-- The grid is one axis: point t has coordinate t. -/
theorem coords_val : ∀ t : Fin cfg0.N, ((grid0.coords t) 0).val = t.val :=
  (by decide +kernel : ∀ t : Fin grid0.N, _)

/-- The input windows' printed index maps, decided over the grid: block (0, t) at point t. -/
theorem idx_facts_in : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

/-- A signed compare of a small word with 10000. -/
theorem slt_small (a : ℕ) (ha : a < 2 ^ 31) :
    IntOp.cmpi .slt (BitVec.ofNat 32 a) 10000#32 = BitVec.ofBool (decide (a < 10000)) := by
  unfold IntOp.cmpi
  congr 1
  show (BitVec.ofNat 32 a).slt (BitVec.ofNat 32 10000) = _
  simp only [BitVec.slt, StableHlo.Predicate.toInt_ofNat_small a ha, StableHlo.Predicate.toInt_ofNat_small 10000 (by norm_num)]
  rw [decide_eq_decide]
  exact Int.ofNat_lt

/-- The column mask of tile t (t = 0, 1) at its column k: the column is a sampled pair. -/
theorem mask_decode (k : Fin 5120) (t : ℕ) (ht : t < 2) :
    IntOp.cmpi .slt (BitVec.ofNat 32 k.val + BitVec.ofNat 32 t * 5120#32) 10000#32
      = BitVec.ofBool (decide (k.val + 5120 * t < 10000)) := by
  have hk := k.isLt
  have hw : BitVec.ofNat 32 k.val + BitVec.ofNat 32 t * 5120#32 = BitVec.ofNat 32 (k.val + 5120 * t) := by
    have h01 : t = 0 ∨ t = 1 := by omega
    rcases h01 with rfl | rfl
    · rw [show BitVec.ofNat 32 0 * 5120#32 = 0#32 from by decide, BitVec.add_zero]
      rfl
    · rw [show BitVec.ofNat 32 1 * 5120#32 = BitVec.ofNat 32 5120 from by decide, ← BitVec.ofNat_add]
  rw [hw, slt_small _ (by omega)]

/-- The four arrays the region's windows read, at their literal type. -/
abbrev arr0 (c : Dev nD) : S64x10240.Idx → EReal := V (F := Ideal) m c main_v15
abbrev arr1 (c : Dev nD) : S64x10240.Idx → EReal := V (F := Ideal) m c main_v17
abbrev arr2 (c : Dev nD) : S64x10240.Idx → EReal := V (F := Ideal) m c main_v16
abbrev arr3 (c : Dev nD) : S64x10240.Idx → EReal := V (F := Ideal) m c main_v18

/-- Window 0's block at point t is columns 5120 t … 5120 t + 5119 of its array; likewise windows 1, 2, 3. -/
theorem iblk0_apply (c : Dev nD) (t : Fin cfg0.N) (b : Fin 64) (k : Fin 5120) (q : Fin 10240) (hq : q.val = k.val + 5120 * t.val) :
    (iblk m c 0 t : Vec Ideal S64x5120 .f32) (ix2 b k) = arr0 m c (ix2 b q) := by
  obtain ⟨⟨e0, e1⟩, -⟩ := idx_facts_in t
  unfold iblk
  rw [View.read_apply]
  show V (F := Ideal) m c main_v15 _ = V (F := Ideal) m c main_v15 _
  congr 1
  funext a; apply Fin.ext
  match a with
  | ⟨0, _⟩ => show win0_0.index t (0 : Fin 2) * 64 + 1 * b.val = b.val; rw [e0]; omega
  | ⟨1, _⟩ => show win0_0.index t (1 : Fin 2) * 5120 + 1 * k.val = q.val; rw [e1, hq]; omega
theorem iblk1_apply (c : Dev nD) (t : Fin cfg0.N) (b : Fin 64) (k : Fin 5120) (q : Fin 10240) (hq : q.val = k.val + 5120 * t.val) :
    (iblk m c 1 t : Vec Ideal S64x5120 .f32) (ix2 b k) = arr1 m c (ix2 b q) := by
  obtain ⟨-, ⟨e0, e1⟩, -⟩ := idx_facts_in t
  unfold iblk
  rw [View.read_apply]
  show V (F := Ideal) m c main_v17 _ = V (F := Ideal) m c main_v17 _
  congr 1
  funext a; apply Fin.ext
  match a with
  | ⟨0, _⟩ => show win0_1.index t (0 : Fin 2) * 64 + 1 * b.val = b.val; rw [e0]; omega
  | ⟨1, _⟩ => show win0_1.index t (1 : Fin 2) * 5120 + 1 * k.val = q.val; rw [e1, hq]; omega
theorem iblk2_apply (c : Dev nD) (t : Fin cfg0.N) (b : Fin 64) (k : Fin 5120) (q : Fin 10240) (hq : q.val = k.val + 5120 * t.val) :
    (iblk m c 2 t : Vec Ideal S64x5120 .f32) (ix2 b k) = arr2 m c (ix2 b q) := by
  obtain ⟨-, -, ⟨e0, e1⟩, -⟩ := idx_facts_in t
  unfold iblk
  rw [View.read_apply]
  show V (F := Ideal) m c main_v16 _ = V (F := Ideal) m c main_v16 _
  congr 1
  funext a; apply Fin.ext
  match a with
  | ⟨0, _⟩ => show win0_2.index t (0 : Fin 2) * 64 + 1 * b.val = b.val; rw [e0]; omega
  | ⟨1, _⟩ => show win0_2.index t (1 : Fin 2) * 5120 + 1 * k.val = q.val; rw [e1, hq]; omega
theorem iblk3_apply (c : Dev nD) (t : Fin cfg0.N) (b : Fin 64) (k : Fin 5120) (q : Fin 10240) (hq : q.val = k.val + 5120 * t.val) :
    (iblk m c 3 t : Vec Ideal S64x5120 .f32) (ix2 b k) = arr3 m c (ix2 b q) := by
  obtain ⟨-, -, -, e0, e1⟩ := idx_facts_in t
  unfold iblk
  rw [View.read_apply]
  show V (F := Ideal) m c main_v18 _ = V (F := Ideal) m c main_v18 _
  congr 1
  funext a; apply Fin.ext
  match a with
  | ⟨0, _⟩ => show win0_3.index t (0 : Fin 2) * 64 + 1 * b.val = b.val; rw [e0]; omega
  | ⟨1, _⟩ => show win0_3.index t (1 : Fin 2) * 5120 + 1 * k.val = q.val; rw [e1, hq]; omega

/-- The column loss of column n of the four arrays (0 past their 10240 columns). -/
def colAt (c : Dev nD) (n : ℕ) : EReal :=
  if h : n < 10240 then
    colLoss (fun b => arr0 m c (ix2 b ⟨n, h⟩)) (fun b => arr1 m c (ix2 b ⟨n, h⟩))
      (fun b => arr2 m c (ix2 b ⟨n, h⟩)) (fun b => arr3 m c (ix2 b ⟨n, h⟩))
  else c0

/-- Tile t's sum, over the arrays' columns 5120 t + k. -/
theorem tileAt_eq (c : Dev nD) (t : Fin cfg0.N) :
    tileAt m c t = ∑ k : Fin 5120, if k.val + 5120 * t.val < 10000 then colAt m c (k.val + 5120 * t.val) else c0 := by
  have ht : t.val < 2 := lt_of_lt_of_eq t.isLt N_0
  unfold tileAt tileSum
  refine Finset.sum_congr rfl fun k _ => ?_
  have hk := k.isLt
  rw [coords_val t, mask_decode k t.val ht, select_ofBool]
  refine if_congr Iff.rfl ?_ rfl
  have hq : k.val + 5120 * t.val < 10240 := by omega
  have e0 : col (iblk m c 0 t) k = fun b => arr0 m c (ix2 b ⟨k.val + 5120 * t.val, hq⟩) :=
    funext fun b => iblk0_apply m c t b k ⟨k.val + 5120 * t.val, hq⟩ rfl
  have e1 : col (iblk m c 1 t) k = fun b => arr1 m c (ix2 b ⟨k.val + 5120 * t.val, hq⟩) :=
    funext fun b => iblk1_apply m c t b k ⟨k.val + 5120 * t.val, hq⟩ rfl
  have e2 : col (iblk m c 2 t) k = fun b => arr2 m c (ix2 b ⟨k.val + 5120 * t.val, hq⟩) :=
    funext fun b => iblk2_apply m c t b k ⟨k.val + 5120 * t.val, hq⟩ rfl
  have e3 : col (iblk m c 3 t) k = fun b => arr3 m c (ix2 b ⟨k.val + 5120 * t.val, hq⟩) :=
    funext fun b => iblk3_apply m c t b k ⟨k.val + 5120 * t.val, hq⟩ rfl
  rw [e0, e1, e2, e3]
  unfold colAt
  rw [dif_pos hq]

/-- Tile n's sum, as a function of a natural number (0 past the grid). -/
def tileN (c : Dev nD) (n : ℕ) : EReal := if h : n < cfg0.N then tileAt m c ⟨n, h⟩ else c0

/-- The 256 lanes sum to the sum, over the 10000 sampled pairs, of the arrays' column losses. -/
theorem lanes_eq (c : Dev nD) : (∑ j : S1x256.Idx, outArr m c j) = ∑ n : Fin 10000, colAt m c n.val := by
  rw [sum_idx2, Fin.sum_univ_one]
  have hg : ∀ q : Fin 256, outArr m c (ix2 (0 : Fin 1) q)
      = if q.val % 128 = 0 then tileN m c (q.val / 128) else c0 := fun q => by
    unfold outArr
    show (if q.val % 128 = 0 then tileAt m c ⟨q.val / 128, N_lt q⟩ else c0) = _
    refine if_congr Iff.rfl ?_ rfl
    unfold tileN
    rw [dif_pos (N_lt q)]
  rw [Finset.sum_congr rfl fun q _ => hg q, lanes_sum (tileN m c)]
  have h0 : (0 : ℕ) < cfg0.N := lt_of_lt_of_eq (by norm_num : (0 : ℕ) < 2) N_0.symm
  have h1 : (1 : ℕ) < cfg0.N := lt_of_lt_of_eq (by norm_num : (1 : ℕ) < 2) N_0.symm
  unfold tileN
  rw [dif_pos h0, dif_pos h1, tileAt_eq, tileAt_eq]
  exact tile_sum (colAt m c)

/-- THE KERNEL PROGRAM'S RESULT: when the four arrays the region finds hold, in their first 10000 columns, the arrays
    P1, P2, O1, O2, @main's result is their ranking loss. -/
theorem kernel_loss (c : Dev nD) (P1 P2 O1 O2 : Fin 64 → Fin 10000 → EReal)
    (h1 : ∀ (b : Fin 64) (n : Fin 10000), arr0 m c (ix2 b ⟨n.val, by omega⟩) = P1 b n)
    (h2 : ∀ (b : Fin 64) (n : Fin 10000), arr1 m c (ix2 b ⟨n.val, by omega⟩) = P2 b n)
    (h3 : ∀ (b : Fin 64) (n : Fin 10000), arr2 m c (ix2 b ⟨n.val, by omega⟩) = O1 b n)
    (h4 : ∀ (b : Fin 64) (n : Fin 10000), arr3 m c (ix2 b ⟨n.val, by omega⟩) = O2 b n) (i : S_.Idx) :
    (Pipeline.afterTail₀ cfgs (dats m) 0 (V0 m) [hostOps1] c main_v21 : S_.Idx → EReal) i = loss P1 P2 O1 O2 := by
  refine (congrFun (tail_eq m c) i).trans ?_
  rw [tail_val, lanes_eq]
  unfold loss
  refine congrArg (fun s => Ideal.div (c0 + s) c10000) (Finset.sum_congr rfl fun n _ => ?_)
  have hn : n.val < 10240 := by omega
  unfold colAt
  rw [dif_pos hn]
  congr 1
  · funext b; exact h1 b n
  · funext b; exact h2 b n
  · funext b; exact h3 b n
  · funext b; exact h4 b n

/-! ## The run -/

/-- The frame run, read at @main's result: the tail's value, and the argument arrays unchanged. -/
theorem run : θ_run defs (onTc (τ := τ) (main (F := Ideal))) ⟨m, fun _ => 0, ρ⟩ fun r => ∀ c : Dev nD,
      r.2.mem ((c.tc : Thread nD τ).loc main_v21) = Pipeline.afterTail₀ cfgs (dats m) 0 (V0 m) [hostOps1] c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).2 main_v21 (Pipeline.mem_restRefs_of main_v21 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KValue

end
-- ==== Proof.lean ====
/-
  The certificate's claims. Both programs compute the ranking loss of the same four [64, 10000] arrays: the
  ground-truth image and the predicted image, each read at the first and at the second site of the 10000 sampled
  pairs. The reference gathers a site's pixel by its row and column, the kernel by the flattened position
  384 · row + column; under the precondition (every row and column index in [0, 384)) the two are the same pixel.
  From there on the two programs apply the same operations entry by entry; the reference counts a column's
  ordered pairs as an integer and the kernel as a float, both the same natural number; and the kernel adds the
  10000 column losses in two tiles of 5120 columns (the last 240 masked out) where the reference adds them in one
  sum: on the extended reals a finite sum may be regrouped freely.
  The three frames are the programs' runs with the results dropped; the idealization rewrote nothing.
-/
import proofs.«416620_j80083960201609_3_alg».proof.Defs
import proofs.«416620_j80083960201609_3_alg».proof.Proof.Gen.Kernel
import proofs.«416620_j80083960201609_3_alg».proof.Proof.Gen.Kernel.Skeleton
import proofs.«416620_j80083960201609_3_alg».proof.Proof.Gen.Kernel.Launch
import proofs.«416620_j80083960201609_3_alg».proof.Proof.Gen.Kernel.Points
import proofs.«416620_j80083960201609_3_alg».proof.Proof.FrameKernel
import proofs.«416620_j80083960201609_3_alg».proof.Proof.Gen.KernelIdeal
import proofs.«416620_j80083960201609_3_alg».proof.Proof.Gen.KernelIdeal.Skeleton
import proofs.«416620_j80083960201609_3_alg».proof.Proof.Gen.KernelIdeal.Launch
import proofs.«416620_j80083960201609_3_alg».proof.Proof.Gen.KernelIdeal.Points
import proofs.«416620_j80083960201609_3_alg».proof.Proof.FrameKernelIdeal
import proofs.«416620_j80083960201609_3_alg».proof.Proof.Gen.ReferenceIdeal
import proofs.«416620_j80083960201609_3_alg».proof.Proof.Gen.Pre_finite_inputs
import proofs.«416620_j80083960201609_3_alg».proof.Proof.RefRun
import proofs.«416620_j80083960201609_3_alg».proof.Proof.RefRead
import proofs.«416620_j80083960201609_3_alg».proof.Proof.Spec
import proofs.«416620_j80083960201609_3_alg».proof.Proof.Pix
import proofs.«416620_j80083960201609_3_alg».proof.Proof.RefLoss
import proofs.«416620_j80083960201609_3_alg».proof.Proof.RefPix
import proofs.«416620_j80083960201609_3_alg».proof.Proof.KernelPix
import proofs.«416620_j80083960201609_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.RankLoss

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the ranking loss of the sampled pixels of the kernel's arguments. -/
theorem algebraic : Cert.algebraic_KernelIdeal_ReferenceIdeal := by
  intro m ρ m' ρ' hpre hagree
  refine ⟨fun c _ => loss
      (pix (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (pix (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (pix (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (pix (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))), ?_, ?_⟩
  · -- the kernel program
    refine (θ_run Cert.KernelIdeal.defs _ _).mono (fun _ h c => ⟨(h c).1.trans ?_, (h c).2⟩)
      (Cert.KernelIdeal.KValue.run m ρ)
    obtain ⟨r2, r3, r4, r5⟩ := Cert.ReferenceIdeal.RefPix.inRange_of_pre _ _ _ _ _ _ (hpre c)
    funext i
    exact Cert.KernelIdeal.KValue.kernel_loss m c _ _ _ _
      (fun b n => Cert.KernelIdeal.KernelPix.V_pix1 m c r2 r3 b n)
      (fun b n => Cert.KernelIdeal.KernelPix.V_pix2 m c r4 r5 b n)
      (fun b n => Cert.KernelIdeal.KernelPix.V_o1 m c r2 r3 b n)
      (fun b n => Cert.KernelIdeal.KernelPix.V_o2 m c r4 r5 b n) i
  · -- the reference program
    refine (θ_run Cert.ReferenceIdeal.defs _ _).mono (fun _ h c => ⟨(h c).1.trans ?_, (h c).2⟩)
      (Cert.ReferenceIdeal.ValueP.run (F := Ideal) m' ρ')
    obtain ⟨r2, r3, r4, r5⟩ := Cert.ReferenceIdeal.RefPix.inRange_of_pre _ _ _ _ _ _ (hpre c)
    obtain ⟨a0, a1, a2, a3, a4, a5⟩ := hagree c
    rw [Cert.ReferenceIdeal.ReadP.val_main_v102_eq, a0, a1, a2, a3, a4, a5]
    funext i
    rw [Cert.ReferenceIdeal.RefLoss.ref_loss]
    congr 1
    · funext b n; exact Cert.ReferenceIdeal.RefPix.ref_pix15 _ _ _ r2 r3 b n
    · funext b n; exact Cert.ReferenceIdeal.RefPix.ref_pix29 _ _ _ r4 r5 b n
    · funext b n; exact Cert.ReferenceIdeal.RefPix.ref_pix55 _ _ _ r2 r3 b n
    · funext b n; exact Cert.ReferenceIdeal.RefPix.ref_pix69 _ _ _ r4 r5 b n

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
